-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x512x512 : S_.BroadcastsInDim S8x512x512 (![] : Fin 0 → Fin S8x512x512.rank)
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel
  reducesTo_S8x512x512_S_d0_1_2 : S8x512x512.ReducesTo [0, 1, 2] S_

variable [Facts]

def fn {F : FTy → Type} [FloatOps F] (main_arg0 : FVec F S8x19x512x512 .f32) (main_arg1 : IVec S8x512x512 32) : IVec S_ 1 :=
  let main_c : IVec S_ 32 := constantI S_ 32 255#32
  let main_v0 : IVec S8x512x512 32 := broadcastInDim S8x512x512 ![] bcast_S_S8x512x512 main_c
  let main_v1 : IVec S8x512x512 1 := cmpi .ne main_arg1 main_v0
  let main_c_0 : IVec S_ 32 := constantI S_ 32 0#32
  let main_v2 : IVec S8x512x512 32 := broadcastInDim S8x512x512 ![] bcast_S_S8x512x512 main_c_0
  let main_v3 : IVec S8x512x512 32 := select main_v1 main_arg1 main_v2
  let main_v4 : FVec F S8x19x512x512 .f32 := Host.absf main_arg0
  let main_cst : FVec F S_ .f32 := constant S_ .f32 0x7F800000#32
  let main_v5 : FVec F S8x19x512x512 .f32 := broadcastInDim S8x19x512x512 ![] bcast_S_S8x19x512x512 main_cst
  let main_v6 : IVec S8x19x512x512 1 := cmpf .olt main_v4 main_v5
  let main_c_1 : IVec S_ 1 := constantI S_ 1 1#1
  let main_v7 : IVec S_ 1 := (fun x v => Host.reduce IntOp.andi x v reducesTo_S8x19x512x512_S_d0_1_2_3 h_S_) main_v6 main_c_1
  let main_c_2 : IVec S_ 32 := constantI S_ 32 0#32
  let main_v8 : IVec S8x512x512 32 := broadcastInDim S8x512x512 ![] bcast_S_S8x512x512 main_c_2
  let main_v9 : IVec S8x512x512 1 := cmpi .sge main_v3 main_v8
  let main_c_3 : IVec S_ 32 := constantI S_ 32 19#32
  let main_v10 : IVec S8x512x512 32 := broadcastInDim S8x512x512 ![] bcast_S_S8x512x512 main_c_3
  let main_v11 : IVec S8x512x512 1 := cmpi .slt main_v3 main_v10
  let main_v12 : IVec S8x512x512 1 := andi main_v9 main_v11
  let main_c_4 : IVec S_ 1 := constantI S_ 1 1#1
  let main_v13 : IVec S_ 1 := (fun x v => Host.reduce IntOp.andi x v reducesTo_S8x512x512_S_d0_1_2 h_S_) main_v12 main_c_4
  let main_v14 : IVec S_ 1 := andi main_v7 main_v13
  main_v14
-- ==== Kernel.lean ====
abbrev S8x19x512x512 : Shape := ⟨4, ![8, 19, 512, 512]⟩
abbrev S8x512x512 : Shape := ⟨3, ![8, 512, 512]⟩
abbrev S1x19x32x512 : Shape := ⟨4, ![1, 19, 32, 512]⟩
abbrev S1x32x512 : Shape := ⟨3, ![1, 32, 512]⟩
abbrev S19x32x512 : Shape := ⟨3, ![19, 32, 512]⟩
abbrev S32x512 : Shape := ⟨2, ![32, 512]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x512x512, .f32⟩
  | .hbm, ⟨3, _⟩ => ⟨S8x512x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x19x32x512, .f32⟩
  | .local _ .vmem, ⟨1, _⟩ => ⟨S1x19x32x512, .f32⟩
  | .local _ .vmem, ⟨2, _⟩ => ⟨S1x32x512, .i32⟩
  | .local _ .vmem, ⟨3, _⟩ => ⟨S1x32x512, .i32⟩
  | .local _ .vmem, ⟨4, _⟩ => ⟨S1x32x512, .f32⟩
  | .local _ .vmem, ⟨5, _⟩ => ⟨S1x32x512, .f32⟩
  | .local _ .vmem, ⟨6, _⟩ => ⟨S1x32x512, .f32⟩
  | .local _ .vmem, ⟨7, _⟩ => ⟨S1x32x512, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x19x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x19x32x512_S1x19x32x512_0_0_0_0 : ∀ a, (![0, 0, 0, 0] : Fin 4 → Nat) a + S1x19x32x512.size a ≤ S1x19x32x512.size a
  h_S1x19x32x512 : 0 < S1x19x32x512.numel
  shapeCasts_S1x19x32x512_S19x32x512 : S1x19x32x512.ShapeCasts S19x32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  iota_S19x32x512_d0_w32 : S19x32x512.Iotas .tc 32 [0]
  shapeCasts_S32x512_S1x32x512 : S32x512.ShapeCasts S1x32x512
  shapeCasts_S1x32x512_S1x32x512 : S1x32x512.ShapeCasts S1x32x512
  broadcasts_S1x32x512_S19x32x512 : S1x32x512.Broadcasts S19x32x512
  reduces_S19x32x512_S32x512 : S19x32x512.Reduces [0] S32x512
  natLt_1_32 : 1 < 32
  reducesTo_S8x512x512_S_d0_1_2 : S8x512x512.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x32x512.size a ≤ S8x19x512x512.size a
  hwx0_0 : ∀ i : grid0.Coords, EltTy.bits .f32 = 32 ∨ (Rect.block (s := S8x19x512x512) S1x19x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512.size a ≤ S8x512x512.size a
  hwx0_1 : ∀ i : grid0.Coords, EltTy.bits .i32 = 32 ∨ (Rect.block (s := S8x512x512) S1x32x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x512.size a ≤ S8x512x512.size a
  hwx0_2 : ∀ i : grid0.Coords, EltTy.bits .f32 = 32 ∨ (Rect.block (s := S8x512x512) S1x32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x512.size a ≤ S8x512x512.size a
  hwx0_3 : ∀ i : grid0.Coords, EltTy.bits .f32 = 32 ∨ (Rect.block (s := S8x512x512) S1x32x512.size (cc0_transform_3 i) (hinb0_3 i)).WholeWords (EltTy.packing .f32)

variable [Facts₀]

abbrev win0_0 : Pipeline.Window sig grid0 :=
  Pipeline.Window.ofSpec (Memref.whole main_arg0) S1x19x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x32x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S8x1x512x512 : Shape := ⟨4, ![8, 1, 512, 512]⟩
abbrev S1x19x1x1 : Shape := ⟨4, ![1, 19, 1, 1]⟩
abbrev S8x1x512x512x1 : Shape := ⟨5, ![8, 1, 512, 512, 1]⟩
abbrev S1 : Shape := ⟨1, ![1]⟩
abbrev S1x1x1x1x1 : Shape := ⟨5, ![1, 1, 1, 1, 1]⟩

abbrev nBuf : Space → Nat
  | .hbm => 95
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S_, .i32⟩
  | .hbm, ⟨3, _⟩ => ⟨S8x512x512, .i32⟩
  | .hbm, ⟨4, _⟩ => ⟨S8x512x512, .i1⟩
  | .hbm, ⟨5, _⟩ => ⟨S_, .i32⟩
  | .hbm, ⟨6, _⟩ => ⟨S_, .i32⟩
  | .hbm, ⟨7, _⟩ => ⟨S8x512x512, .i32⟩
  | .hbm, ⟨8, _⟩ => ⟨S8x512x512, .i32⟩
  | .hbm, ⟨9, _⟩ => ⟨S8x1x512x512, .i32⟩
  | .hbm, ⟨10, _⟩ => ⟨S1x19x1x1, .i32⟩
  | .hbm, ⟨11, _⟩ => ⟨S8x19x512x512, .i32⟩
  | .hbm, ⟨12, _⟩ => ⟨S8x19x512x512, .i32⟩
  | .hbm, ⟨13, _⟩ => ⟨S8x19x512x512, .i1⟩
  | .hbm, ⟨14, _⟩ => ⟨S_, .f32⟩
  | .hbm, ⟨15, _⟩ => ⟨S_, .f32⟩
  | .hbm, ⟨16, _⟩ => ⟨S8x19x512x512, .f32⟩
  | .hbm, ⟨17, _⟩ => ⟨S8x19x512x512, .f32⟩
  | .hbm, ⟨18, _⟩ => ⟨S_, .f32⟩
  | .hbm, ⟨19, _⟩ => ⟨S8x512x512, .f32⟩
  | .hbm, ⟨20, _⟩ => ⟨S_, .f32⟩
  | .hbm, ⟨21, _⟩ => ⟨S8x512x512, .f32⟩
  | .hbm, ⟨22, _⟩ => ⟨S8x512x512, .f32⟩
  | .hbm, ⟨23, _⟩ => ⟨S8x1x512x512, .f32⟩
  | .hbm, ⟨24, _⟩ => ⟨S8x19x512x512, .f32⟩
  | .hbm, ⟨25, _⟩ => ⟨S8x19x512x512, .f32⟩
  | .hbm, ⟨26, _⟩ => ⟨S8x19x512x512, .f32⟩
  | .hbm, ⟨27, _⟩ => ⟨S_, .f32⟩
  | .hbm, ⟨28, _⟩ => ⟨S8x512x512, .f32⟩
  | .hbm, ⟨29, _⟩ => ⟨S8x1x512x512, .f32⟩
  | .hbm, ⟨30, _⟩ => ⟨S8x1x512x512, .f32⟩
  | .hbm, ⟨31, _⟩ => ⟨S8x19x512x512, .f32⟩
  | .hbm, ⟨32, _⟩ => ⟨S8x19x512x512, .f32⟩
  | .hbm, ⟨33, _⟩ => ⟨S8x19x512x512, .f32⟩
  | .hbm, ⟨34, _⟩ => ⟨S_, .f32⟩
  | .hbm, ⟨35, _⟩ => ⟨S8x19x512x512, .f32⟩
  | .hbm, ⟨36, _⟩ => ⟨S8x19x512x512, .f32⟩
  | .hbm, ⟨37, _⟩ => ⟨S8x19x512x512, .f32⟩
  | .hbm, ⟨38, _⟩ => ⟨S_, .f32⟩
  | .hbm, ⟨39, _⟩ => ⟨S_, .f32⟩
  | .hbm, ⟨40, _⟩ => ⟨S8x19x512x512, .f32⟩
  | .hbm, ⟨41, _⟩ => ⟨S8x19x512x512, .f32⟩
  | .hbm, ⟨42, _⟩ => ⟨S_, .f32⟩
  | .hbm, ⟨43, _⟩ => ⟨S8x512x512, .f32⟩
  | .hbm, ⟨44, _⟩ => ⟨S_, .f32⟩
  | .hbm, ⟨45, _⟩ => ⟨S8x512x512, .f32⟩
  | .hbm, ⟨46, _⟩ => ⟨S8x512x512, .f32⟩
  | .hbm, ⟨47, _⟩ => ⟨S_, .f32⟩
  | .hbm, ⟨48, _⟩ => ⟨S8x512x512, .f32⟩
  | .hbm, ⟨49, _⟩ => ⟨S_, .f32⟩
  | .hbm, ⟨50, _⟩ => ⟨S8x512x512, .f32⟩
  | .hbm, ⟨51, _⟩ => ⟨S8x512x512, .f32⟩
  | .hbm, ⟨52, _⟩ => ⟨S8x1x512x512, .f32⟩
  | .hbm, ⟨53, _⟩ => ⟨S8x19x512x512, .f32⟩
  | .hbm, ⟨54, _⟩ => ⟨S8x19x512x512, .f32⟩
  | .hbm, ⟨55, _⟩ => ⟨S8x19x512x512, .f32⟩
  | .hbm, ⟨56, _⟩ => ⟨S_, .f32⟩
  | .hbm, ⟨57, _⟩ => ⟨S8x512x512, .f32⟩
  | .hbm, ⟨58, _⟩ => ⟨S8x1x512x512, .f32⟩
  | .hbm, ⟨59, _⟩ => ⟨S8x1x512x512, .f32⟩
  | .hbm, ⟨60, _⟩ => ⟨S8x19x512x512, .f32⟩
  | .hbm, ⟨61, _⟩ => ⟨S8x19x512x512, .f32⟩
  | .hbm, ⟨62, _⟩ => ⟨S8x1x512x512, .i32⟩
  | .hbm, ⟨63, _⟩ => ⟨S_, .i32⟩
  | .hbm, ⟨64, _⟩ => ⟨S8x1x512x512, .i32⟩
  | .hbm, ⟨65, _⟩ => ⟨S8x1x512x512, .i1⟩
  | .hbm, ⟨66, _⟩ => ⟨S_, .i32⟩
  | .hbm, ⟨67, _⟩ => ⟨S8x1x512x512, .i32⟩
  | .hbm, ⟨68, _⟩ => ⟨S8x1x512x512, .i32⟩
  | .hbm, ⟨69, _⟩ => ⟨S8x1x512x512, .i32⟩
  | .hbm, ⟨70, _⟩ => ⟨S8x1x512x512x1, .i32⟩
  | .hbm, ⟨71, _⟩ => ⟨S1, .i32⟩
  | .hbm, ⟨72, _⟩ => ⟨S_, .i32⟩
  | .hbm, ⟨73, _⟩ => ⟨S8x1x512x512x1, .i32⟩
  | .hbm, ⟨74, _⟩ => ⟨S8x1x512x512x1, .i1⟩
  | .hbm, ⟨75, _⟩ => ⟨S1x1x1x1x1, .i32⟩
  | .hbm, ⟨76, _⟩ => ⟨S8x1x512x512x1, .i32⟩
  | .hbm, ⟨77, _⟩ => ⟨S8x1x512x512x1, .i1⟩
  | .hbm, ⟨78, _⟩ => ⟨S8x1x512x512x1, .i1⟩
  | .hbm, ⟨79, _⟩ => ⟨S_, .i1⟩
  | .hbm, ⟨80, _⟩ => ⟨S8x1x512x512, .i1⟩
  | .hbm, ⟨81, _⟩ => ⟨S8x1x512x512, .f32⟩
  | .hbm, ⟨82, _⟩ => ⟨S_, .f32⟩
  | .hbm, ⟨83, _⟩ => ⟨S8x1x512x512, .f32⟩
  | .hbm, ⟨84, _⟩ => ⟨S8x1x512x512, .f32⟩
  | .hbm, ⟨85, _⟩ => ⟨S8x512x512, .f32⟩
  | .hbm, ⟨86, _⟩ => ⟨S8x512x512, .f32⟩
  | .hbm, ⟨87, _⟩ => ⟨S8x512x512, .f32⟩
  | .hbm, ⟨88, _⟩ => ⟨S8x512x512, .f32⟩
  | .hbm, ⟨89, _⟩ => ⟨S8x512x512, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_v3 : Ref sig .tc := ⟨.hbm, 13, rfl⟩
abbrev main_cst : Ref sig .tc := ⟨.hbm, 14, rfl⟩
abbrev main_call2_v0 : Ref sig .tc := ⟨.hbm, 15, rfl⟩
abbrev main_call2_v1 : Ref sig .tc := ⟨.hbm, 16, rfl⟩
abbrev main_v4 : Ref sig .tc := ⟨.hbm, 17, rfl⟩
abbrev main_call3_cst : Ref sig .tc := ⟨.hbm, 18, rfl⟩
abbrev main_call3_v0 : Ref sig .tc := ⟨.hbm, 19, rfl⟩
abbrev main_call3_cst_0 : Ref sig .tc := ⟨.hbm, 20, rfl⟩
abbrev main_call3_v1 : Ref sig .tc := ⟨.hbm, 21, rfl⟩
abbrev main_call3_v2 : Ref sig .tc := ⟨.hbm, 22, rfl⟩
abbrev main_call3_v3 : Ref sig .tc := ⟨.hbm, 23, rfl⟩
abbrev main_call3_v4 : Ref sig .tc := ⟨.hbm, 24, rfl⟩
abbrev main_call3_v5 : Ref sig .tc := ⟨.hbm, 25, rfl⟩
abbrev main_call3_v6 : Ref sig .tc := ⟨.hbm, 26, rfl⟩
abbrev main_call3_cst_1 : Ref sig .tc := ⟨.hbm, 27, rfl⟩
abbrev main_call3_v7 : Ref sig .tc := ⟨.hbm, 28, rfl⟩
abbrev main_call3_v8 : Ref sig .tc := ⟨.hbm, 29, rfl⟩
abbrev main_call3_v9 : Ref sig .tc := ⟨.hbm, 30, rfl⟩
abbrev main_call3_v10 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_2 : Ref sig .tc := ⟨.hbm, 38, rfl⟩
abbrev main_call4_v0 : Ref sig .tc := ⟨.hbm, 39, rfl⟩
abbrev main_call4_v1 : Ref sig .tc := ⟨.hbm, 40, rfl⟩
abbrev main_v10 : Ref sig .tc := ⟨.hbm, 41, rfl⟩
abbrev main_cst_3 : Ref sig .tc := ⟨.hbm, 42, rfl⟩
abbrev main_v11 : Ref sig .tc := ⟨.hbm, 43, rfl⟩
abbrev main_cst_4 : Ref sig .tc := ⟨.hbm, 44, rfl⟩
abbrev main_v12 : Ref sig .tc := ⟨.hbm, 45, rfl⟩
abbrev main_v13 : Ref sig .tc := ⟨.hbm, 46, rfl⟩
abbrev main_call5_cst : Ref sig .tc := ⟨.hbm, 47, rfl⟩
abbrev main_call5_v0 : Ref sig .tc := ⟨.hbm, 48, rfl⟩
abbrev main_call5_cst_0 : Ref sig .tc := ⟨.hbm, 49, rfl⟩
abbrev main_call5_v1 : Ref sig .tc := ⟨.hbm, 50, rfl⟩
abbrev main_call5_v2 : Ref sig .tc := ⟨.hbm, 51, rfl⟩
abbrev main_call5_v3 : Ref sig .tc := ⟨.hbm, 52, rfl⟩
abbrev main_call5_v4 : Ref sig .tc := ⟨.hbm, 53, rfl⟩
abbrev main_call5_v5 : Ref sig .tc := ⟨.hbm, 54, rfl⟩
abbrev main_call5_v6 : Ref sig .tc := ⟨.hbm, 55, rfl⟩
abbrev main_call5_cst_1 : Ref sig .tc := ⟨.hbm, 56, rfl⟩
abbrev main_call5_v7 : Ref sig .tc := ⟨.hbm, 57, rfl⟩
abbrev main_call5_v8 : Ref sig .tc := ⟨.hbm, 58, rfl⟩
abbrev main_call5_v9 : Ref sig .tc := ⟨.hbm, 59, rfl⟩
abbrev main_call5_v10 : Ref sig .tc := ⟨.hbm, 60, rfl⟩
abbrev main_v14 : Ref sig .tc := ⟨.hbm, 61, rfl⟩
abbrev main_v15 : Ref sig .tc := ⟨.hbm, 62, rfl⟩
abbrev main_call6_c : Ref sig .tc := ⟨.hbm, 63, rfl⟩
abbrev main_call6_v0 : Ref sig .tc := ⟨.hbm, 64, rfl⟩
abbrev main_call6_v1 : Ref sig .tc := ⟨.hbm, 65, rfl⟩
abbrev main_call6_c_0 : Ref sig .tc := ⟨.hbm, 66, rfl⟩
abbrev main_call6_v2 : Ref sig .tc := ⟨.hbm, 67, rfl⟩
abbrev main_call6_v3 : Ref sig .tc := ⟨.hbm, 68, rfl⟩
abbrev main_call6_v4 : Ref sig .tc := ⟨.hbm, 69, rfl⟩
abbrev main_call6_v5 : Ref sig .tc := ⟨.hbm, 70, rfl⟩
abbrev main_call6_c_1 : Ref sig .tc := ⟨.hbm, 71, rfl⟩
abbrev main_call6_c_2 : Ref sig .tc := ⟨.hbm, 72, rfl⟩
abbrev main_call6_v6 : Ref sig .tc := ⟨.hbm, 73, rfl⟩
abbrev main_call6_v7 : Ref sig .tc := ⟨.hbm, 74, rfl⟩
abbrev main_call6_v8 : Ref sig .tc := ⟨.hbm, 75, rfl⟩
abbrev main_call6_v9 : Ref sig .tc := ⟨.hbm, 76, rfl⟩
abbrev main_call6_v10 : Ref sig .tc := ⟨.hbm, 77, rfl⟩
abbrev main_call6_v11 : Ref sig .tc := ⟨.hbm, 78, rfl⟩
abbrev main_call6_c_3 : Ref sig .tc := ⟨.hbm, 79, rfl⟩
abbrev main_call6_v12 : Ref sig .tc := ⟨.hbm, 80, rfl⟩
abbrev main_call6_v13 : Ref sig .tc := ⟨.hbm, 81, rfl⟩
abbrev main_call6_cst : Ref sig .tc := ⟨.hbm, 82, rfl⟩
abbrev main_call6_v14 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_cst_5 : Ref sig .tc := ⟨.hbm, 90, rfl⟩
abbrev main_v22 : Ref sig .tc := ⟨.hbm, 91, rfl⟩
abbrev main_cst_6 : Ref sig .tc := ⟨.hbm, 92, rfl⟩
abbrev main_v23 : Ref sig .tc := ⟨.hbm, 93, rfl⟩
abbrev main_v24 : Ref sig .tc := ⟨.hbm, 94, rfl⟩

abbrev nD : Nat := 1
abbrev τ : Topo := Topo.v7x

variable {F : FTy → Type} [FloatOps F]

class Facts₀ : Prop where
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x19x512x512_0_1_2_3 : S8x1x512x512.BroadcastsInDim S8x19x512x512 (![0, 1, 2, 3] : Fin 4 → Fin S8x19x512x512.rank)
  bcast_S1x19x1x1_S8x19x512x512_0_1_2_3 : S1x19x1x1.BroadcastsInDim S8x19x512x512 (![0, 1, 2, 3] : Fin 4 → Fin S8x19x512x512.rank)
  bcast_S_S8x19x512x512 : S_.BroadcastsInDim S8x19x512x512 (![] : Fin 0 → Fin S8x19x512x512.rank)
  reducesTo_S8x19x512x512_S8x512x512_d1 : S8x19x512x512.ReducesTo [1] S8x512x512
  h_S_ : 0 < S_.numel
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  reducesTo_S8x512x512_S_d0_1_2 : S8x512x512.ReducesTo [0, 1, 2] S_
  gather_S8x19x512x512_S8x1x512x512x1_S8x1x512x512_n_1_023_023_1_4_1111_wf : GatherDims.WF S8x19x512x512 S8x1x512x512x1 S8x1x512x512 [] [1] [0, 2, 3] [1] [0, 2, 3] 4 ![1, 1, 1, 1]

variable [Facts₀]

def gather_S8x19x512x512_S8x1x512x512x1_S8x1x512x512_n_1_023_023_1_4_1111 : GatherDims S8x19x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x19x512x512_S8x1x512x512x1_S8x1x512x512_n_1_023_023_1_4_1111_wf

class Facts : Prop extends Facts₀ where

variable [Facts]
-- ==== Proof.Spec.lean ====
/-
  The per-pixel mathematics of the large-margin softmax loss, over the extended reals.

  A pixel carries nineteen class scores `x c` and one label word `l`.  The label 255 means "ignore";
  the class index `cls l` is the label, or 0 at an ignored pixel.  `hot l c` is the one-hot bit of class `c`.
  The loss of a pixel is
      margin + cross-entropy,  times the validity bit,
  where, with `logSoftmax y c = (y c - max y) - log (∑ exp (y - max y))`,
    * margin = (∑ over c not the label of (exp (logSoftmax y c) - 1/18) · logSoftmax y c) · 0.15 with `y` the
      scores whose label entry is replaced by the large negative constant, and
    * cross-entropy = 0 - ∑ over c of (logSoftmax x c if c is the label, else 0), which is -logSoftmax x (cls l)
      as soon as the class index is one of the nineteen classes (`picked_eq`).
  The constants are kept as the float words both programs carry; only the zero word and the -∞ word are evaluated.
-/
import Idealize.ShloMosaic.PureOps.Ideal
import Idealize.ShloMosaic.PureOps.Ideal.Laws
import Idealize.ShloMosaic.Lib.ValueIdx
import Idealize.ShloMosaic.Lib.Affine

noncomputable section

namespace Cert.MarginLoss

open Idealize.ShloMosaic

/-- The class index of a label word: the word itself, or 0 when it is the ignore label 255. -/
def cls (l : BitVec 32) : BitVec 32 := Scalar.select (IntOp.cmpi .ne l 255#32) l 0#32

/-- The one-hot bit: class `c` is the pixel's class index. -/
def hot (l : BitVec 32) (c : Fin 19) : BitVec 1 := IntOp.cmpi .eq (BitVec.ofNat 32 c.val) (cls l)

/-- The large negative score that masks the label's class (the float word -1e30). -/
def negBig : EReal := Ideal.ofBits .f32 0xF149F2CA#32
/-- The float word of 1/18. -/
def coeff : EReal := Ideal.ofBits .f32 0x3D638E39#32
/-- The float word of 0.15. -/
def lam : EReal := Ideal.ofBits .f32 0x3E19999A#32
/-- The zero word. -/
def zeroW : EReal := Ideal.ofBits .f32 0x00000000#32
/-- The word of -∞, from which a maximum over the classes starts. -/
def negInf : EReal := Ideal.ofBits .f32 0xFF800000#32

theorem zeroW_eq : zeroW = 0 := Ideal.ofBits_zero_f32
theorem negInf_eq : negInf = ⊥ := by simp [negInf, Ideal.ofBits, Ideal.ieee]

/-- The scores with the label's class masked. -/
def masked (x : Fin 19 → EReal) (l : BitVec 32) (c : Fin 19) : EReal := Scalar.select (hot l c) negBig (x c)

/-- The largest of nineteen scores. -/
def top (y : Fin 19 → EReal) : EReal := (Finset.univ : Finset (Fin 19)).fold max negInf y

/-- A score less the largest. -/
def shifted (y : Fin 19 → EReal) (c : Fin 19) : EReal := y c - top y

/-- The logarithm of the sum of the exponentials of the shifted scores. -/
def lse (y : Fin 19 → EReal) : EReal := Ideal.log (∑ c : Fin 19, Ideal.exp (shifted y c))

/-- The log-softmax over the nineteen classes. -/
def logSoftmax (y : Fin 19 → EReal) (c : Fin 19) : EReal := shifted y c - lse y

/-- One class's term of the margin: zero at the label's class. -/
def marginTerm (x : Fin 19 → EReal) (l : BitVec 32) (c : Fin 19) : EReal :=
  Scalar.select (hot l c) zeroW ((Ideal.exp (logSoftmax (masked x l) c) - coeff) * logSoftmax (masked x l) c)

/-- The margin term of a pixel. -/
def margin (x : Fin 19 → EReal) (l : BitVec 32) : EReal := (∑ c : Fin 19, marginTerm x l c) * lam

/-- The log-softmax at the label's class, as a masked sum over the classes. -/
def picked (x : Fin 19 → EReal) (l : BitVec 32) : EReal := ∑ c : Fin 19, Scalar.select (hot l c) (logSoftmax x c) zeroW

/-- The validity bit of a label as a number: 1 unless the label is 255. -/
def valid (l : BitVec 32) : EReal := ((((IntOp.cmpi .ne l 255#32).setWidth 32).toInt : ℝ) : EReal)

/-- The weighted loss of a pixel. -/
def loss (x : Fin 19 → EReal) (l : BitVec 32) : EReal := (margin x l + (zeroW - picked x l)) * valid l

/-- The weighted loss of every pixel of a batch: logits [8, 19, 512, 512] (image, class, row, column), labels
    [8, 512, 512]; pixel (n, h, w) has the scores `X (n, c, h, w)` and the label `L (n, h, w)`. -/
def lossArr (X : (⟨4, ![8, 19, 512, 512]⟩ : Shape).Idx → EReal) (L : (⟨3, ![8, 512, 512]⟩ : Shape).Idx → BitVec 32) :
    (⟨3, ![8, 512, 512]⟩ : Shape).Idx → EReal :=
  fun j => loss (fun c => X (ValueIdx.ix4 (j 0) c (j 1) (j 2))) (L j)

/-- The validity number of every pixel of a batch. -/
def validArr (L : (⟨3, ![8, 512, 512]⟩ : Shape).Idx → BitVec 32) : (⟨3, ![8, 512, 512]⟩ : Shape).Idx → EReal :=
  fun j => valid (L j)

/-- The mean the programs return: the sum of the weighted losses over the sum of the validity numbers (both sums
    over every pixel of the batch, each from the zero word). -/
def meanLoss (W V : (⟨3, ![8, 512, 512]⟩ : Shape).Idx → EReal) : (⟨0, ![]⟩ : Shape).Idx → EReal :=
  Host.divf (F := Ideal) (φ := .f32)
    (Host.reduceAdd (F := Ideal) (φ := .f32) (axes := [0, 1, 2]) W (constant (F := Ideal) ⟨0, ![]⟩ .f32 0x00000000#32))
    (Host.reduceAdd (F := Ideal) (φ := .f32) (axes := [0, 1, 2]) V (constant (F := Ideal) ⟨0, ![]⟩ .f32 0x00000000#32))

/-! ## The laws that join the two programs' spellings -/

theorem cmpi_eq_comm {w : Nat} (a b : BitVec w) : IntOp.cmpi .eq a b = IntOp.cmpi .eq b a := by
  unfold IntOp.cmpi
  congr 1
  exact Bool.beq_comm

/-- The validity number read off the one-bit word unsigned is the same number. -/
theorem valid_eq_toNat (l : BitVec 32) : valid l = (((IntOp.cmpi .ne l 255#32).toNat : ℝ) : EReal) := by
  unfold valid
  generalize IntOp.cmpi .ne l 255#32 = b
  by_cases h : b = 1#1
  · subst h; rfl
  · have h0 := ValueIdx.eq_zero_of_ne_one h
    subst h0; rfl

/-- An equality test of two words answers 1 exactly when they are equal. -/
theorem cmpi_eq_one_iff {w : Nat} (a b : BitVec w) : IntOp.cmpi .eq a b = 1#1 ↔ a = b := by
  show BitVec.ofBool (a == b) = 1#1 ↔ a = b
  by_cases h : a = b
  · subst h; simp
  · have hb : (a == b) = false := by simp [h]
    rw [hb]
    exact ⟨fun e => absurd e (by decide), fun e => absurd e h⟩

/-- With the class index among the nineteen classes, the one-hot bit of class `c` is set exactly at that class. -/
theorem hot_eq_one_iff (l : BitVec 32) (h : (cls l).toNat < 19) (c : Fin 19) :
    hot l c = 1#1 ↔ c = ⟨(cls l).toNat, h⟩ := by
  unfold hot
  rw [cmpi_eq_one_iff]
  have hc := c.isLt
  constructor
  · intro e2
    apply Fin.ext
    show c.val = (cls l).toNat
    rw [← e2, BitVec.toNat_ofNat]
    omega
  · intro e
    apply BitVec.eq_of_toNat_eq
    rw [BitVec.toNat_ofNat, e]
    show (cls l).toNat % 2 ^ 32 = (cls l).toNat
    omega

/-- The masked sum picks the log-softmax at the class index. -/
theorem picked_eq (x : Fin 19 → EReal) (l : BitVec 32) (h : (cls l).toNat < 19) :
    picked x l = logSoftmax x ⟨(cls l).toNat, h⟩ := by
  unfold picked
  rw [Finset.sum_eq_single (⟨(cls l).toNat, h⟩ : Fin 19)]
  · rw [((hot_eq_one_iff l h _).mpr rfl), ValueIdx.select_one]
  · intro c _ hne
    have : hot l c = 0#1 := ValueIdx.eq_zero_of_ne_one (fun e => hne ((hot_eq_one_iff l h c).mp e))
    rw [this, ValueIdx.select_zero, zeroW_eq]
  · intro hn; exact absurd (Finset.mem_univ _) hn

/-! ## The class index among the nineteen classes -/

/-- The class index, read as a signed number, is one of the nineteen classes. -/
def InRange (l : BitVec 32) : Prop := 0 ≤ (cls l).toInt ∧ (cls l).toInt < 19

/-- Then it is the same number read unsigned, below nineteen. -/
theorem toNat_of_inRange {l : BitVec 32} (h : InRange l) : (cls l).toNat < 19 ∧ (cls l).toInt = (cls l).toNat := by
  obtain ⟨h0, h1⟩ := h
  have hk := (cls l).isLt
  have e := BitVec.toInt_eq_toNat_cond (cls l)
  split at e <;> omega

/-- It is not negative: the test "below zero" answers 0. -/
theorem slt_zero_of_inRange {l : BitVec 32} (h : InRange l) : IntOp.cmpi .slt (cls l) 0#32 = 0#1 := by
  refine ValueIdx.eq_zero_of_ne_one fun e => ?_
  have := IntOp.cmpi_slt.mp e
  have z : (0#32 : BitVec 32).toInt = 0 := by decide
  have := h.1
  omega

/-- The test "at least zero" answers 1. -/
theorem sge_zero_of_inRange {l : BitVec 32} (h : InRange l) : IntOp.cmpi .sge (cls l) 0#32 = 1#1 := by
  refine IntOp.cmpi_sge.mpr ?_
  have z : (0#32 : BitVec 32).toInt = 0 := by decide
  have := h.1
  omega

/-- The test "at most eighteen" answers 1. -/
theorem sle_18_of_inRange {l : BitVec 32} (h : InRange l) : IntOp.cmpi .sle (cls l) 18#32 = 1#1 := by
  refine IntOp.cmpi_sle.mpr ?_
  have z : (18#32 : BitVec 32).toInt = 18 := by decide
  have := h.2
  omega

/-- Read signed and clamped into the classes, it is itself. -/
theorem clamp_of_inRange {l : BitVec 32} (h : InRange l) : min (cls l).toInt.toNat (19 - 1) = (cls l).toNat := by
  obtain ⟨h1, h2⟩ := toNat_of_inRange h
  omega

/-- Zero less a number is its negative. -/
theorem zeroW_sub (a : EReal) : zeroW - a = -a := by
  rw [zeroW_eq, sub_eq_add_neg, zero_add]

/-- A maximum that starts once more from -∞ is the maximum. -/
theorem max_negInf (a : EReal) : max negInf a = a := by
  rw [negInf_eq]; exact max_eq_right bot_le

end Cert.MarginLoss

end
-- ==== Proof.LibClassAxis.lean ====
/-
  A block of scores laid out [classes, rows, lanes], read at one (row, lane): the operations that are not pointwise.
  A reduction over the leading (class) axis at (r, w) ranges over the entries (c, r, w); a row-and-lane array given a
  leading unit axis and broadcast over the classes reads (0, r, w) at every class; the iota along the class axis is
  the class number.
-/
import Idealize.ShloMosaic.PureOps.Ideal.Laws
import Idealize.ShloMosaic.Lib.ValueIdx
import Idealize.ShloMosaic.Lib.Pipeline.Value

noncomputable section

namespace Cert.MarginLoss.ClassAxis

open Idealize.ShloMosaic Idealize.ShloMosaic.ValueIdx

variable {n a b : ℕ}

/-- The index (r, w) with the class `c` inserted on the reduced leading axis is (c, r, w). -/
theorem lift_eq (h : Shape.Reduces ⟨3, ![n, a, b]⟩ [0] ⟨2, ![a, b]⟩) (r : Fin a) (w : Fin b) (c : Fin n) :
    h.lift (ix2 r w) c = ix3 c r w := by
  funext d
  match d with
  | ⟨0, _⟩ => exact Fin.ext rfl
  | ⟨1, _⟩ => exact Fin.ext rfl
  | ⟨2, _⟩ => exact Fin.ext rfl

/-- A sum over the class axis from the zero word, at (r, w): the sum over the classes of the entries (c, r, w). -/
theorem sum_classes (src : FVec Ideal ⟨3, ![n, a, b]⟩ .f32)
    (h : Shape.Reduces ⟨3, ![n, a, b]⟩ [0] ⟨2, ![a, b]⟩) (hφ : FKind.Formats .f32) (hacc : (0x00000000#32 : BitVec 32) = 0x00000000#32)
    (r : Fin a) (w : Fin b) :
    multiReduction .add [0] ⟨2, ![a, b]⟩ src 0x00000000#32 h hφ hacc (ix2 r w) = ∑ c : Fin n, src (ix3 c r w) := by
  refine (Ideal.multiReduction_add_single src 0x00000000#32 h hφ hacc (ix2 r w)).trans ?_
  exact Finset.sum_congr rfl fun c _ => congrArg src (lift_eq h r w c)

/-- A maximum over the class axis from the word of -∞, at (r, w): the fold of `max` from -∞ over the entries (c, r, w). -/
theorem max_classes (src : FVec Ideal ⟨3, ![n, a, b]⟩ .f32)
    (h : Shape.Reduces ⟨3, ![n, a, b]⟩ [0] ⟨2, ![a, b]⟩) (hφ : FKind.Formats .f32) (hacc : (0xFF800000#32 : BitVec 32) = 0xFF800000#32)
    (r : Fin a) (w : Fin b) :
    multiReduction .maximumf [0] ⟨2, ![a, b]⟩ src 0xFF800000#32 h hφ hacc (ix2 r w)
      = (Finset.univ : Finset (Fin n)).fold max (Ideal.ofBits .f32 0xFF800000#32) (fun c => src (ix3 c r w)) := by
  refine (Ideal.multiReduction_maximumf_single src 0xFF800000#32 h hφ hacc (ix2 r w)).trans ?_
  have e : (src ∘ h.lift (ix2 r w)) = fun c => src (ix3 c r w) := funext fun c => congrArg src (lift_eq h r w c)
  rw [e]
  rfl

/-- One row-and-lane array with a leading unit axis, broadcast over the classes, reads (0, r, w) at every class. -/
theorem bcast_classes {α : Type} (v : (⟨3, ![1, a, b]⟩ : Shape).Idx → α) (h : (⟨3, ![1, a, b]⟩ : Shape).Broadcasts ⟨3, ![n, a, b]⟩)
    (c : Fin n) (r : Fin a) (w : Fin b) :
    broadcastTo ⟨3, ![n, a, b]⟩ v h (ix3 c r w) = v (ix3 (0 : Fin 1) r w) := by
  refine broadcastTo_apply v h _ _ fun d => ?_
  match d with
  | ⟨0, _⟩ => rfl
  | ⟨1, _⟩ =>
    show r.val = if a = 1 then 0 else r.val
    split
    · have := r.isLt; omega
    · rfl
  | ⟨2, _⟩ =>
    show w.val = if b = 1 then 0 else w.val
    split
    · have := w.isLt; omega
    · rfl

/-- The iota along the class axis is the class number. -/
theorem iota_classes (h : (⟨3, ![n, a, b]⟩ : Shape).Iotas .tc 32 [0]) (c : Fin n) (r : Fin a) (w : Fin b) :
    iota .tc ⟨3, ![n, a, b]⟩ 32 [0] h (ix3 c r w) = BitVec.ofNat 32 c.val :=
  iota_single_apply .tc _ 32 0 h _

end Cert.MarginLoss.ClassAxis

end
-- ==== Proof.KernelPixel.lean ====
/-
  The body of the kernel at one pixel.  A grid point holds a block of logits [1, 19, 32, 512] (one image, the nineteen
  classes, 32 rows, 512 columns) and a block of labels [1, 32, 512]; the body works on the logits viewed as
  [19, 32, 512], classes leading, and reduces over that leading axis.  Read at the pixel (r, w), each value of the body is
  the per-pixel quantity of the specification for the scores x0 (0, c, r, w) and the label x1 (0, r, w):
  the one-hot bit, the masked scores, their log-softmax (maximum, shift, log of the sum of exponentials), the margin,
  the cross-entropy as a one-hot-masked sum, and the two stored values: the weighted loss and the validity number.
-/
import proofs.«421635_j45526653337749_1_alg».proof.Proof.Gen.KernelIdeal.Skeleton
import proofs.«421635_j45526653337749_1_alg».proof.Proof.Spec
import proofs.«421635_j45526653337749_1_alg».proof.Proof.LibClassAxis
import Idealize.ShloMosaic.Lib.ValueLayout
import Idealize.ShloMosaic.Lib.Pipeline.Value

noncomputable section

namespace Cert.KernelIdeal.Pixel

open Cert.KernelIdeal Cert.KernelIdeal.Gen Idealize.ShloMosaic Idealize.ShloMosaic.ValueIdx Cert.MarginLoss Cert.MarginLoss.ClassAxis

variable (x0 : Vec Ideal S1x19x32x512 .f32) (x1 : Vec Ideal S1x32x512 .i32) (r : Fin 32) (w : Fin 512)

/-- The scores of the pixel (r, w) of a block of logits, by class. -/
abbrev scores : Fin 19 → EReal := fun c => x0 (ix4 (0 : Fin 1) c r w)
/-- The label word of the pixel (r, w) of a block of labels. -/
abbrev label : BitVec 32 := x1 (ix3 (0 : Fin 1) r w)

/-! ## Class-axis computations on an arbitrary block -/

/-- The scores of a block less their class-axis maximum, read at one entry. -/
theorem shifted_block (y : FVec Ideal S19x32x512 .f32) (c : Fin 19) :
    subf y (broadcastTo S19x32x512 (shapeCast S1x32x512 (multiReduction .maximumf [0] S32x512 y 0xFF800000#32 reduces_S19x32x512_S32x512 (.inl rfl) rfl) shapeCasts_S32x512_S1x32x512) broadcasts_S1x32x512_S19x32x512)
      (ix3 c r w)
    = shifted (fun c' => y (ix3 c' r w)) c := by
  show FloatOps.subf (y (ix3 c r w)) (broadcastTo S19x32x512 _ _ (ix3 c r w)) = _
  rw [bcast_classes, shapeCast_ab_1ab_apply, max_classes]
  rfl

/-- The log-softmax of a block of scores [classes, rows, lanes], computed along the class axis, read at one entry. -/
theorem logSoftmax_block (y : FVec Ideal S19x32x512 .f32) (c : Fin 19) :
    subf (subf y (broadcastTo S19x32x512 (shapeCast S1x32x512 (multiReduction .maximumf [0] S32x512 y 0xFF800000#32 reduces_S19x32x512_S32x512 (.inl rfl) rfl) shapeCasts_S32x512_S1x32x512) broadcasts_S1x32x512_S19x32x512))
      (broadcastTo S19x32x512 (log (shapeCast S1x32x512 (multiReduction .add [0] S32x512 (exp (subf y (broadcastTo S19x32x512 (shapeCast S1x32x512 (multiReduction .maximumf [0] S32x512 y 0xFF800000#32 reduces_S19x32x512_S32x512 (.inl rfl) rfl) shapeCasts_S32x512_S1x32x512) broadcasts_S1x32x512_S19x32x512))) 0x00000000#32 reduces_S19x32x512_S32x512 (.inl rfl) rfl) shapeCasts_S32x512_S1x32x512)) broadcasts_S1x32x512_S19x32x512)
      (ix3 c r w)
    = logSoftmax (fun c' => y (ix3 c' r w)) c := by
  show FloatOps.subf (subf y _ (ix3 c r w)) (broadcastTo S19x32x512 _ _ (ix3 c r w)) = _
  rw [shifted_block, bcast_classes]
  show _ - FloatOps.log (shapeCast S1x32x512 _ _ (ix3 (0 : Fin 1) r w)) = _
  rw [shapeCast_ab_1ab_apply, sum_classes]
  have e : ∀ c' : Fin 19, exp (subf y (broadcastTo S19x32x512 (shapeCast S1x32x512 (multiReduction .maximumf [0] S32x512 y 0xFF800000#32 reduces_S19x32x512_S32x512 (.inl rfl) rfl) shapeCasts_S32x512_S1x32x512) broadcasts_S1x32x512_S19x32x512)) (ix3 c' r w)
      = Ideal.exp (shifted (fun c'' => y (ix3 c'' r w)) c') := fun c' => congrArg Ideal.exp (shifted_block r w y c')
  simp only [e]
  rfl

/-- One class's margin term of a block: zero where the one-hot bit is set, else (exp(log-softmax) - 1/18) · log-softmax. -/
theorem marginTerm_block (hotv : IVec S19x32x512 1) (y : FVec Ideal S19x32x512 .f32) (c : Fin 19) :
    (select hotv (broadcast S19x32x512 (Scalar.ofBits .f32 0x00000000#32))
      (mulf
        (subf
          (exp (subf (subf y (broadcastTo S19x32x512 (shapeCast S1x32x512 (multiReduction .maximumf [0] S32x512 y 0xFF800000#32 reduces_S19x32x512_S32x512 (.inl rfl) rfl) shapeCasts_S32x512_S1x32x512) broadcasts_S1x32x512_S19x32x512))
            (broadcastTo S19x32x512 (log (shapeCast S1x32x512 (multiReduction .add [0] S32x512 (exp (subf y (broadcastTo S19x32x512 (shapeCast S1x32x512 (multiReduction .maximumf [0] S32x512 y 0xFF800000#32 reduces_S19x32x512_S32x512 (.inl rfl) rfl) shapeCasts_S32x512_S1x32x512) broadcasts_S1x32x512_S19x32x512))) 0x00000000#32 reduces_S19x32x512_S32x512 (.inl rfl) rfl) shapeCasts_S32x512_S1x32x512)) broadcasts_S1x32x512_S19x32x512)))
          (broadcast S19x32x512 (Scalar.ofBits .f32 0x3D638E39#32)))
        (subf (subf y (broadcastTo S19x32x512 (shapeCast S1x32x512 (multiReduction .maximumf [0] S32x512 y 0xFF800000#32 reduces_S19x32x512_S32x512 (.inl rfl) rfl) shapeCasts_S32x512_S1x32x512) broadcasts_S1x32x512_S19x32x512))
          (broadcastTo S19x32x512 (log (shapeCast S1x32x512 (multiReduction .add [0] S32x512 (exp (subf y (broadcastTo S19x32x512 (shapeCast S1x32x512 (multiReduction .maximumf [0] S32x512 y 0xFF800000#32 reduces_S19x32x512_S32x512 (.inl rfl) rfl) shapeCasts_S32x512_S1x32x512) broadcasts_S1x32x512_S19x32x512))) 0x00000000#32 reduces_S19x32x512_S32x512 (.inl rfl) rfl) shapeCasts_S32x512_S1x32x512)) broadcasts_S1x32x512_S19x32x512))) :
      FVec Ideal S19x32x512 .f32) (ix3 c r w)
    = Scalar.select (hotv (ix3 c r w)) zeroW
        ((Ideal.exp (logSoftmax (fun c' => y (ix3 c' r w)) c) - coeff) * logSoftmax (fun c' => y (ix3 c' r w)) c) := by
  show Scalar.select (hotv (ix3 c r w)) _
      (FloatOps.mulf (FloatOps.subf (FloatOps.exp (subf (subf y _) _ (ix3 c r w))) _) (subf (subf y _) _ (ix3 c r w))) = _
  rw [logSoftmax_block]
  rfl

/-! ## The payloads of the body, read at one pixel -/

theorem pay5_apply : k0_pay5 (F := Ideal) x1 (ix2 r w) = label x1 r w := by
  unfold k0_pay5
  exact shapeCast_1ab_ab_apply _ _ r w

theorem pay6_apply : k0_pay6 (F := Ideal) x1 (ix2 r w) = IntOp.cmpi .ne (label x1 r w) 255#32 := by
  unfold k0_pay6
  show IntOp.cmpi .ne (k0_pay5 (F := Ideal) x1 (ix2 r w)) 255#32 = _
  rw [pay5_apply]

theorem pay4_apply (c : Fin 19) : k0_pay4 (F := Ideal) x0 (ix3 c r w) = scores x0 r w c := by
  unfold k0_pay4
  exact shapeCast_1abc_abc_apply _ _ c r w

/-- The one-hot bit of the body is the pixel's. -/
theorem pay7_apply (c : Fin 19) : k0_pay7 (F := Ideal) x1 (ix3 c r w) = hot (label x1 r w) c := by
  unfold k0_pay7
  simp only [cmpi, select, broadcast]
  rw [iota_classes, bcast_classes, shapeCast_self, shapeCast_ab_1ab_apply]
  show IntOp.cmpi .eq _ (Scalar.select (k0_pay6 (F := Ideal) x1 (ix2 r w)) (k0_pay5 (F := Ideal) x1 (ix2 r w)) 0#32) = _
  rw [pay5_apply, pay6_apply]
  rfl

/-- The block of scores with the label's class masked, read at one entry. -/
theorem masked_block (c : Fin 19) :
    (select (k0_pay7 (F := Ideal) x1) (broadcast S19x32x512 (Scalar.ofBits .f32 0xF149F2CA#32)) (k0_pay4 (F := Ideal) x0) : FVec Ideal S19x32x512 .f32) (ix3 c r w)
      = masked (scores x0 r w) (label x1 r w) c := by
  show Scalar.select (k0_pay7 (F := Ideal) x1 (ix3 c r w)) _ (k0_pay4 (F := Ideal) x0 (ix3 c r w)) = _
  rw [pay7_apply, pay4_apply]
  rfl

theorem pay9_apply (c : Fin 19) : k0_pay9 (F := Ideal) x0 (ix3 c r w) = shifted (scores x0 r w) c := by
  unfold k0_pay9
  refine (shifted_block r w (k0_pay4 (F := Ideal) x0) c).trans ?_
  simp only [pay4_apply]

theorem pay10_apply : k0_pay10 (F := Ideal) x0 (ix2 r w) = ∑ c : Fin 19, Ideal.exp (shifted (scores x0 r w) c) := by
  unfold k0_pay10
  show multiReduction .add [0] S32x512 _ _ _ _ _ (ix2 r w) = _
  rw [sum_classes]
  exact Finset.sum_congr rfl fun c _ => congrArg Ideal.exp (pay9_apply x0 r w c)

/-- The margin of the body is the pixel's. -/
theorem pay8_apply : k0_pay8 (F := Ideal) x0 x1 (ix2 r w) = margin (scores x0 r w) (label x1 r w) := by
  unfold k0_pay8
  show FloatOps.mulf (multiReduction .add [0] S32x512 _ _ _ _ _ (ix2 r w)) _ = _
  rw [sum_classes]
  refine congrArg (fun s : EReal => s * lam) (Finset.sum_congr rfl fun c _ => ?_)
  refine (marginTerm_block r w _ _ c).trans ?_
  rw [pay7_apply]
  simp only [masked_block]
  rfl

theorem pay1_apply : k0_pay1 (F := Ideal) (k0_pay6 (F := Ideal) x1) (ix2 r w) = valid (label x1 r w) := by
  unfold k0_pay1
  show FloatOps.sitofp .f32 ((k0_pay6 (F := Ideal) x1 (ix2 r w)).setWidth 32) = _
  rw [pay6_apply]
  rfl

theorem pay3_apply : k0_pay3 (F := Ideal) (k0_pay6 (F := Ideal) x1) (ix3 (0 : Fin 1) r w) = valid (label x1 r w) := by
  unfold k0_pay3
  rw [shapeCast_ab_1ab_apply, pay1_apply]

/-- The weighted loss the body stores is the pixel's. -/
theorem pay2_apply :
    k0_pay2 (F := Ideal) (k0_pay6 (F := Ideal) x1) (k0_pay7 (F := Ideal) x1) (k0_pay8 (F := Ideal) x0 x1) (k0_pay9 (F := Ideal) x0)
        (k0_pay10 (F := Ideal) x0) (ix3 (0 : Fin 1) r w)
      = loss (scores x0 r w) (label x1 r w) := by
  unfold k0_pay2
  rw [shapeCast_ab_1ab_apply]
  show FloatOps.mulf (FloatOps.addf (k0_pay8 (F := Ideal) x0 x1 (ix2 r w))
      (FloatOps.subf _ (multiReduction .add [0] S32x512 _ _ _ _ _ (ix2 r w)))) (k0_pay1 (F := Ideal) (k0_pay6 (F := Ideal) x1) (ix2 r w)) = _
  rw [sum_classes, pay8_apply, pay1_apply]
  refine congrArg (fun s : EReal => (margin (scores x0 r w) (label x1 r w) + (zeroW - s)) * valid (label x1 r w))
    (Finset.sum_congr rfl fun c _ => ?_)
  show Scalar.select (k0_pay7 (F := Ideal) x1 (ix3 c r w))
      (FloatOps.subf (k0_pay9 (F := Ideal) x0 (ix3 c r w)) (broadcastTo S19x32x512 _ _ (ix3 c r w))) _ = _
  rw [pay7_apply, pay9_apply, bcast_classes]
  show Scalar.select _ (_ - FloatOps.log (shapeCast S1x32x512 _ _ (ix3 (0 : Fin 1) r w))) _ = _
  rw [shapeCast_ab_1ab_apply, pay10_apply]
  rfl

end Cert.KernelIdeal.Pixel

end
-- ==== Proof.KernelArrays.lean ====
/-
  From blocks to arrays, and the kernel's run.  The grid is 8 images × 16 bands of 32 rows.  At the point (n, h) the
  logits' block is rows 32h … 32h+31 of image n over all classes and columns, the labels' and both outputs' blocks the
  same rows of image n.  So what a point writes back is the restriction to its block of ONE function of the argument
  arrays — the per-pixel weighted loss, and the validity number —, the 128 blocks tile the [8, 512, 512] arrays, and
  after the region each output array is that function.  The lines after the region sum both arrays and divide.
-/
import proofs.«421635_j45526653337749_1_alg».proof.Proof.Gen.KernelIdeal.Frame
import proofs.«421635_j45526653337749_1_alg».proof.Proof.KernelPixel

noncomputable section

namespace Cert.KernelIdeal.Arrays

open Cert.KernelIdeal Cert.KernelIdeal.Gen Idealize.ShloMosaic Idealize.ShloMosaic.ValueIdx Idealize.ShloMosaic.TcCoe Idealize.SL.Sem
open Cert.MarginLoss Cert.KernelIdeal.Pixel
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The weighted loss a block's body stores, at any index of the block. -/
theorem block_loss (x0 : Vec Ideal S1x19x32x512 .f32) (x1 : Vec Ideal S1x32x512 .i32) (j : S1x32x512.Idx) :
    k0_pay2 (F := Ideal) (k0_pay6 (F := Ideal) x1) (k0_pay7 (F := Ideal) x1) (k0_pay8 (F := Ideal) x0 x1) (k0_pay9 (F := Ideal) x0)
        (k0_pay10 (F := Ideal) x0) j
      = loss (fun c => x0 (ix4 (0 : Fin 1) c (j 1) (j 2))) (x1 j) := by
  obtain ⟨u, r, w, rfl⟩ : ∃ (u : Fin 1) (r : Fin 32) (w : Fin 512), j = ix3 u r w := ⟨j 0, j 1, j 2, eq_ix3 j⟩
  obtain rfl : u = 0 := Subsingleton.elim _ _
  exact pay2_apply x0 x1 r w

/-- The validity number a block's body stores, at any index of the block. -/
theorem block_valid (x1 : Vec Ideal S1x32x512 .i32) (j : S1x32x512.Idx) :
    k0_pay3 (F := Ideal) (k0_pay6 (F := Ideal) x1) j = valid (x1 j) := by
  obtain ⟨u, r, w, rfl⟩ : ∃ (u : Fin 1) (r : Fin 32) (w : Fin 512), j = ix3 u r w := ⟨j 0, j 1, j 2, eq_ix3 j⟩
  obtain rfl : u = 0 := Subsingleton.elim _ _
  exact pay3_apply x1 r w

/-- The printed index maps over the grid (8 images × 16 bands of 32 rows): the logits' block is (n, 0, h, 0), the labels'
    and both outputs' blocks are (n, h, 0). -/
theorem idx_facts : ∀ t : Fin cfg0.N,
    win0_0.index t (0 : Fin 4) = win0_2.index t (0 : Fin 3) ∧ win0_0.index t (1 : Fin 4) = 0
    ∧ win0_0.index t (2 : Fin 4) = win0_2.index t (1 : Fin 3) ∧ win0_0.index t (3 : Fin 4) = 0
    ∧ win0_1.index t (0 : Fin 3) = win0_2.index t (0 : Fin 3) ∧ win0_1.index t (1 : Fin 3) = win0_2.index t (1 : Fin 3)
    ∧ win0_1.index t (2 : Fin 3) = 0
    ∧ win0_3.index t (0 : Fin 3) = win0_2.index t (0 : Fin 3) ∧ win0_3.index t (1 : Fin 3) = win0_2.index t (1 : Fin 3)
    ∧ win0_3.index t (2 : Fin 3) = 0
    ∧ win0_2.index t (2 : Fin 3) = 0 ∧ win0_2.index t (0 : Fin 3) ≤ 7 ∧ win0_2.index t (1 : Fin 3) ≤ 15 :=
  (by decide +kernel : ∀ t : Fin grid0.N, _)

/-- Every (image, band) is some grid point's. -/
theorem idx_onto : ∀ (q0 : Fin 8) (q1 : Fin 16), ∃ t : Fin cfg0.N, win0_2.index t (0 : Fin 3) = q0.val ∧ win0_2.index t (1 : Fin 3) = q1.val :=
  (by decide +kernel : ∀ (q0 : Fin 8) (q1 : Fin 16), ∃ t : Fin grid0.N, win0_2.index t (0 : Fin 3) = q0.val ∧ win0_2.index t (1 : Fin 3) = q1.val)

/-- WHAT POINT `t` WRITES BACK to the loss array is block `t` of the per-pixel loss of the argument arrays. -/
theorem flushed2_eq (c : Dev nD) (t : Fin cfg0.N) :
    (dats m 0 c).flushed 2 t = ((cfg0.win 2).blk t).view.read (Elt Ideal) (lossArr (V m c main_arg0) (V m c main_arg1)) := by
  show (cfg0.win 2).cut (grid0.coords t) ((dats m 0 c).after 2 t) = _
  rw [after0_2]
  unfold out0_2
  rw [View.canon_unit_zero hz3]
  simp only [View.ld_unit_zero (S := S1x19x32x512) hz4, View.ld_unit_zero (S := S1x32x512) hz3]
  funext j
  obtain ⟨e0, e1, e2, e3, e4, e5, e6, e7, e8, e9, e10, e11, e12⟩ := idx_facts t
  have hj0 : (j 0).val < 1 := (j 0).isLt
  have hj1 : (j 1).val < 32 := (j 1).isLt
  have hj2 : (j 2).val < 512 := (j 2).isLt
  show k0_pay2 (F := Ideal) (k0_pay6 (F := Ideal) (iblk m c 1 t)) (k0_pay7 (F := Ideal) (iblk m c 1 t)) (k0_pay8 (F := Ideal) (iblk m c 0 t) (iblk m c 1 t))
      (k0_pay9 (F := Ideal) (iblk m c 0 t)) (k0_pay10 (F := Ideal) (iblk m c 0 t)) j
    = lossArr (V m c main_arg0) (V m c main_arg1) (((cfg0.win 2).blk t).view.emb j)
  refine (block_loss (iblk m c 0 t) (iblk m c 1 t) j).trans ?_
  show loss (fun cc => V m c main_arg0 (((cfg0.win 0).blk t).view.emb (ix4 (0 : Fin 1) cc (j 1) (j 2)))) (V m c main_arg1 (((cfg0.win 1).blk t).view.emb j))
    = loss (fun cc => V m c main_arg0 (ix4 ((((cfg0.win 2).blk t).view.emb j) 0) cc ((((cfg0.win 2).blk t).view.emb j) 1) ((((cfg0.win 2).blk t).view.emb j) 2)))
        (V m c main_arg1 (((cfg0.win 2).blk t).view.emb j))
  have h1 : ((cfg0.win 1).blk t).view.emb j = ((cfg0.win 2).blk t).view.emb j := by
    funext a; apply Fin.ext
    match a with
    | ⟨0, _⟩ => show win0_1.index t (0 : Fin 3) * 1 + 1 * (j 0).val = win0_2.index t (0 : Fin 3) * 1 + 1 * (j 0).val; omega
    | ⟨1, _⟩ => show win0_1.index t (1 : Fin 3) * 32 + 1 * (j 1).val = win0_2.index t (1 : Fin 3) * 32 + 1 * (j 1).val; omega
    | ⟨2, _⟩ => show win0_1.index t (2 : Fin 3) * 512 + 1 * (j 2).val = win0_2.index t (2 : Fin 3) * 512 + 1 * (j 2).val; omega
  have h0 : ∀ cc : Fin 19, ((cfg0.win 0).blk t).view.emb (ix4 (0 : Fin 1) cc (j 1) (j 2))
      = ix4 ((((cfg0.win 2).blk t).view.emb j) 0) cc ((((cfg0.win 2).blk t).view.emb j) 1) ((((cfg0.win 2).blk t).view.emb j) 2) := by
    intro cc
    funext a; apply Fin.ext
    match a with
    | ⟨0, _⟩ => show win0_0.index t (0 : Fin 4) * 1 + 1 * 0 = win0_2.index t (0 : Fin 3) * 1 + 1 * (j 0).val; omega
    | ⟨1, _⟩ => show win0_0.index t (1 : Fin 4) * 19 + 1 * cc.val = cc.val; omega
    | ⟨2, _⟩ => show win0_0.index t (2 : Fin 4) * 32 + 1 * (j 1).val = win0_2.index t (1 : Fin 3) * 32 + 1 * (j 1).val; omega
    | ⟨3, _⟩ => show win0_0.index t (3 : Fin 4) * 512 + 1 * (j 2).val = win0_2.index t (2 : Fin 3) * 512 + 1 * (j 2).val; omega
  rw [h1]
  simp only [h0]
  rfl

/-- WHAT POINT `t` WRITES BACK to the validity array is block `t` of the validity numbers of the labels. -/
theorem flushed3_eq (c : Dev nD) (t : Fin cfg0.N) :
    (dats m 0 c).flushed 3 t = ((cfg0.win 3).blk t).view.read (Elt Ideal) (validArr (V m c main_arg1)) := by
  show (cfg0.win 3).cut (grid0.coords t) ((dats m 0 c).after 3 t) = _
  rw [after0_3]
  unfold out0_3
  rw [View.canon_unit_zero hz3]
  simp only [View.ld_unit_zero (S := S1x32x512) hz3]
  funext j
  obtain ⟨e0, e1, e2, e3, e4, e5, e6, e7, e8, e9, e10, e11, e12⟩ := idx_facts t
  have hj0 : (j 0).val < 1 := (j 0).isLt
  have hj1 : (j 1).val < 32 := (j 1).isLt
  have hj2 : (j 2).val < 512 := (j 2).isLt
  show k0_pay3 (F := Ideal) (k0_pay6 (F := Ideal) (iblk m c 1 t)) j = validArr (V m c main_arg1) (((cfg0.win 3).blk t).view.emb j)
  refine (block_valid (iblk m c 1 t) j).trans ?_
  show valid (V m c main_arg1 (((cfg0.win 1).blk t).view.emb j)) = valid (V m c main_arg1 (((cfg0.win 3).blk t).view.emb j))
  have h1 : ((cfg0.win 1).blk t).view.emb j = ((cfg0.win 3).blk t).view.emb j := by
    funext a; apply Fin.ext
    match a with
    | ⟨0, _⟩ => show win0_1.index t (0 : Fin 3) * 1 + 1 * (j 0).val = win0_3.index t (0 : Fin 3) * 1 + 1 * (j 0).val; omega
    | ⟨1, _⟩ => show win0_1.index t (1 : Fin 3) * 32 + 1 * (j 1).val = win0_3.index t (1 : Fin 3) * 32 + 1 * (j 1).val; omega
    | ⟨2, _⟩ => show win0_1.index t (2 : Fin 3) * 512 + 1 * (j 2).val = win0_3.index t (2 : Fin 3) * 512 + 1 * (j 2).val; omega
  rw [h1]

/-- An index of the loss array is in point `t`'s block iff each coordinate is in the block's range on its axis. -/
theorem mem_blk2 (t : Fin cfg0.N) (i : S8x512x512.Idx) :
    i ∈ ((cfg0.win 2).blk t).view.set ↔ ∀ a : Fin 3, win0_2.index t a * S1x32x512.size a ≤ (i a).val ∧ (i a).val < win0_2.index t a * S1x32x512.size a + S1x32x512.size a := by
  show i ∈ ((View.whole main_v0_0).slice (win0_2.rect t)).set ↔ _
  rw [View.set_slice_whole, Rect.mem_set_unit]
  exact Iff.rfl

theorem mem_blk3 (t : Fin cfg0.N) (i : S8x512x512.Idx) :
    i ∈ ((cfg0.win 3).blk t).view.set ↔ ∀ a : Fin 3, win0_3.index t a * S1x32x512.size a ≤ (i a).val ∧ (i a).val < win0_3.index t a * S1x32x512.size a + S1x32x512.size a := by
  show i ∈ ((View.whole main_v0_1).slice (win0_3.rect t)).set ↔ _
  rw [View.set_slice_whole, Rect.mem_set_unit]
  exact Iff.rfl

/-- Every pixel (n, h, w) lies in the block of the point of image n and band h / 32. -/
theorem cover2 (i : S8x512x512.Idx) : ∃ t : Fin cfg0.N, (cfg0.win 2).flush t = true ∧ i ∈ ((cfg0.win 2).blk t).view.set := by
  have hi0 : (i 0).val < 8 := (i 0).isLt
  have hi1 : (i 1).val < 512 := (i 1).isLt
  have hi2 : (i 2).val < 512 := (i 2).isLt
  obtain ⟨t, q0, q1⟩ := idx_onto ⟨(i 0).val, hi0⟩ ⟨(i 1).val / 32, by omega⟩
  obtain ⟨e0, e1, e2, e3, e4, e5, e6, e7, e8, e9, e10, e11, e12⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; simp only at q0; omega
  | ⟨1, _⟩ => show win0_2.index t (1 : Fin 3) * 32 ≤ (i 1).val ∧ (i 1).val < win0_2.index t (1 : Fin 3) * 32 + 32; simp only at q1; omega
  | ⟨2, _⟩ => show win0_2.index t (2 : Fin 3) * 512 ≤ (i 2).val ∧ (i 2).val < win0_2.index t (2 : Fin 3) * 512 + 512; omega

theorem cover3 (i : S8x512x512.Idx) : ∃ t : Fin cfg0.N, (cfg0.win 3).flush t = true ∧ i ∈ ((cfg0.win 3).blk t).view.set := by
  have hi0 : (i 0).val < 8 := (i 0).isLt
  have hi1 : (i 1).val < 512 := (i 1).isLt
  have hi2 : (i 2).val < 512 := (i 2).isLt
  obtain ⟨t, q0, q1⟩ := idx_onto ⟨(i 0).val, hi0⟩ ⟨(i 1).val / 32, by omega⟩
  obtain ⟨e0, e1, e2, e3, e4, e5, e6, e7, e8, e9, e10, e11, e12⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; simp only at q0; omega
  | ⟨1, _⟩ => show win0_3.index t (1 : Fin 3) * 32 ≤ (i 1).val ∧ (i 1).val < win0_3.index t (1 : Fin 3) * 32 + 32; simp only at q1; omega
  | ⟨2, _⟩ => show win0_3.index t (2 : Fin 3) * 512 ≤ (i 2).val ∧ (i 2).val < win0_3.index t (2 : Fin 3) * 512 + 512; omega

/-- THE LOSS ARRAY after the region: the weighted per-pixel loss of the argument arrays. -/
theorem final2 (c : Dev nD) : (dats m 0 c).arrAt 2 cfg0.N = lossArr (m ((c : Thread nD τ).loc main_arg0)) (m ((c : Thread nD τ).loc main_arg1)) :=
  (dats m 0 c).arrAt_eq_of_cover 2 (lossArr (V m c main_arg0) (V m c main_arg1)) (fun t _ => flushed2_eq m c t) cover2

/-- THE VALIDITY ARRAY after the region: the validity numbers of the labels. -/
theorem final3 (c : Dev nD) : (dats m 0 c).arrAt 3 cfg0.N = validArr (m ((c : Thread nD τ).loc main_arg1)) :=
  (dats m 0 c).arrAt_eq_of_cover 3 (validArr (V m c main_arg1)) (fun t _ => flushed3_eq m c t) cover3

/-! ## The run: the region, then the two sums and the quotient -/

/-- What @main's last lines leave in the result: the mean of the two arrays the region wrote. -/
theorem tail_eq (c : Dev nD) :
    Pipeline.afterTail₀ cfgs (dats m) 0 (V0 m) [hostOps1] c main_v3
      = meanLoss ((dats m 0 c).arrAt 2 cfg0.N) ((dats m 0 c).arrAt 3 cfg0.N) := by
  unfold Pipeline.afterTail₀
  show StableHlo.after hostOps1 _ (Proc.devRef .tc main_v3) = _
  after_results
  have e2 : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  rw [e2, e3]
  rfl

/-- The idealized kernel's run: it terminates with the result at the mean of the per-pixel weighted losses of the
    argument arrays over the sum of their validity numbers, the arguments unchanged. -/
theorem run : θ_run defs (onTc (τ := τ) (main (F := Ideal))) ⟨m, fun _ => 0, ρ⟩ fun r => ∀ c : Dev nD,
      r.2.mem ((c.tc : Thread nD τ).loc main_v3)
        = meanLoss (lossArr (m ((c.tc : Thread nD τ).loc main_arg0)) (m ((c.tc : Thread nD τ).loc main_arg1)))
            (validArr (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (by decide)).trans ((tail_eq m c).trans (by rw [final2, final3])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Arrays

end
-- ==== Proof.LibHostClassAxis.lean ====
/-
  A batch of scores laid out [images, classes, rows, columns], read at one pixel by the operations of a host program
  that are not pointwise: a maximum over the class axis at (n, h, w) is the fold of `max` over the entries (n, c, h, w);
  an all-true test over a trailing unit axis is its one element; and the gather that takes, per pixel, the entry of
  the class a start index names — images, rows and columns batching axes, the class axis collapsed — reads at
  (n, 0, h, w) the entry (n, k, h, w) with k the start index at (n, 0, h, w, 0) read signed and clamped into the classes.
-/
import Idealize.ShloMosaic.PureOps.Ideal.Laws
import Idealize.ShloMosaic.Lib.ValueIdx
import Idealize.ShloMosaic.Lib.Pipeline.Value

noncomputable section

namespace Cert.MarginLoss.HostClassAxis

open Idealize.ShloMosaic Idealize.ShloMosaic.ValueIdx

variable {N C A B : ℕ}

/-- The index (n, h, w) with the class `k` inserted on the reduced class axis is (n, k, h, w). -/
theorem lift_eq (hr : Shape.Reduces ⟨4, ![N, C, A, B]⟩ [1] ⟨3, ![N, A, B]⟩) (n : Fin N) (h : Fin A) (w : Fin B) (k : Fin C) :
    hr.lift (ix3 n h w) k = ix4 n k h w := by
  funext d
  match d with
  | ⟨0, _⟩ => exact Fin.ext rfl
  | ⟨1, _⟩ => exact Fin.ext rfl
  | ⟨2, _⟩ => exact Fin.ext rfl
  | ⟨3, _⟩ => exact Fin.ext rfl

/-- A host maximum over the class axis, at (n, h, w): the fold of `max` from the initial value over the entries (n, k, h, w). -/
theorem hostMax_classes {u : Shape} (y : (⟨4, ![N, C, A, B]⟩ : Shape).Idx → EReal) (init : u.Idx → EReal)
    (h' : Shape.ReducesTo ⟨4, ![N, C, A, B]⟩ [1] ⟨3, ![N, A, B]⟩) (hr : Shape.Reduces ⟨4, ![N, C, A, B]⟩ [1] ⟨3, ![N, A, B]⟩)
    (hu : 0 < u.numel) (n : Fin N) (h : Fin A) (w : Fin B) :
    Host.reduce (FloatOps.maximumf (F := Ideal) (φ := .f32)) y init h' hu (ix3 n h w)
      = (Finset.univ : Finset (Fin C)).fold max (init (Shape.Idx.first hu)) (fun k => y (ix4 n k h w)) := by
  rw [Host.reduce_eq_fold_single (FloatOps.maximumf (F := Ideal) (φ := .f32)) y init h' hr hu]
  have e : (y ∘ hr.lift (ix3 n h w)) = fun k => y (ix4 n k h w) := funext fun k => congrArg y (lift_eq hr n h w k)
  rw [e]
  rfl

/-- An all-true test over a trailing unit axis, at (n, u, h, w): the one element (n, u, h, w, 0), and-ed with the initial value. -/
theorem hostAll_unit {u : Shape} (p : IVec ⟨5, ![N, 1, A, B, 1]⟩ 1) (init : IVec u 1)
    (h' : Shape.ReducesTo ⟨5, ![N, 1, A, B, 1]⟩ [4] ⟨4, ![N, 1, A, B]⟩) (hr : Shape.Reduces ⟨5, ![N, 1, A, B, 1]⟩ [4] ⟨4, ![N, 1, A, B]⟩)
    (hu : 0 < u.numel) (n : Fin N) (h : Fin A) (w : Fin B)
    (hp : p (ix5 n (0 : Fin 1) h w (0 : Fin 1)) = 1#1) (hi : init (Shape.Idx.first hu) = 1#1) :
    Host.reduce IntOp.andi p init h' hu (ix4 n (0 : Fin 1) h w) = 1#1 := by
  rw [Host.reduce_eq_fold_single IntOp.andi p init h' hr hu]
  have e : (p ∘ hr.lift (ix4 n (0 : Fin 1) h w)) = fun _ => 1#1 := by
    funext k
    show p (hr.lift (ix4 n (0 : Fin 1) h w) k) = 1#1
    have : hr.lift (ix4 n (0 : Fin 1) h w) k = ix5 n (0 : Fin 1) h w (0 : Fin 1) := by
      funext d
      match d with
      | ⟨0, _⟩ => exact Fin.ext rfl
      | ⟨1, _⟩ => exact Fin.ext rfl
      | ⟨2, _⟩ => exact Fin.ext rfl
      | ⟨3, _⟩ => exact Fin.ext rfl
      | ⟨4, _⟩ => exact Fin.ext (by have hk : k.val < 1 := k.isLt; show k.val = 0; omega)
    rw [this, hp]
  rw [e, hi]
  show (Finset.univ : Finset (Fin 1)).fold IntOp.andi 1#1 (fun _ => 1#1) = 1#1
  decide

/-! ## The gather of one class per pixel -/

section Gather
variable {α : Type}

/-- The dimension numbers of that gather: operand [N, C, A, B], start indices [N, 1, A, B, 1], result [N, 1, A, B]; the
    class axis collapsed and named by the start index, the other three batching axes. -/
abbrev classDims (N C A B : ℕ)
    (wf : GatherDims.WF ⟨4, ![N, C, A, B]⟩ ⟨5, ![N, 1, A, B, 1]⟩ ⟨4, ![N, 1, A, B]⟩ [] [1] [0, 2, 3] [1] [0, 2, 3] 4 ![1, 1, 1, 1]) :
    GatherDims ⟨4, ![N, C, A, B]⟩ ⟨5, ![N, 1, A, B, 1]⟩ ⟨4, ![N, 1, A, B]⟩ where
  offsetDims := []
  collapsedSliceDims := [1]
  operandBatchingDims := [0, 2, 3]
  startIndicesBatchingDims := [0, 2, 3]
  startIndexMap := [1]
  indexVectorDim := 4
  sliceSizes := ![1, 1, 1, 1]
  wf := wf

/-- The operand coordinates a result index (n, 0, h, w) reads, axis by axis: the image, row and column are its own (batching
    axes), the class is the clamped start index. -/
theorem coord0 {wd : ℕ}
    (wf : GatherDims.WF ⟨4, ![N, C, A, B]⟩ ⟨5, ![N, 1, A, B, 1]⟩ ⟨4, ![N, 1, A, B]⟩ [] [1] [0, 2, 3] [1] [0, 2, 3] 4 ![1, 1, 1, 1])
    (idx : IVec ⟨5, ![N, 1, A, B, 1]⟩ wd) (n : Fin N) (h : Fin A) (w : Fin B) :
    (classDims N C A B wf).start (ix4 n (0 : Fin 1) h w) idx (0 : Fin 4) + (classDims N C A B wf).batchCoord (ix4 n (0 : Fin 1) h w) (0 : Fin 4)
      + (classDims N C A B wf).offCoord (ix4 n (0 : Fin 1) h w) (0 : Fin 4) = n.val := by
  show 0 + n.val + 0 = n.val
  omega

theorem coord2 {wd : ℕ}
    (wf : GatherDims.WF ⟨4, ![N, C, A, B]⟩ ⟨5, ![N, 1, A, B, 1]⟩ ⟨4, ![N, 1, A, B]⟩ [] [1] [0, 2, 3] [1] [0, 2, 3] 4 ![1, 1, 1, 1])
    (idx : IVec ⟨5, ![N, 1, A, B, 1]⟩ wd) (n : Fin N) (h : Fin A) (w : Fin B) :
    (classDims N C A B wf).start (ix4 n (0 : Fin 1) h w) idx (2 : Fin 4) + (classDims N C A B wf).batchCoord (ix4 n (0 : Fin 1) h w) (2 : Fin 4)
      + (classDims N C A B wf).offCoord (ix4 n (0 : Fin 1) h w) (2 : Fin 4) = h.val := by
  show 0 + h.val + 0 = h.val
  omega

theorem coord3 {wd : ℕ}
    (wf : GatherDims.WF ⟨4, ![N, C, A, B]⟩ ⟨5, ![N, 1, A, B, 1]⟩ ⟨4, ![N, 1, A, B]⟩ [] [1] [0, 2, 3] [1] [0, 2, 3] 4 ![1, 1, 1, 1])
    (idx : IVec ⟨5, ![N, 1, A, B, 1]⟩ wd) (n : Fin N) (h : Fin A) (w : Fin B) :
    (classDims N C A B wf).start (ix4 n (0 : Fin 1) h w) idx (3 : Fin 4) + (classDims N C A B wf).batchCoord (ix4 n (0 : Fin 1) h w) (3 : Fin 4)
      + (classDims N C A B wf).offCoord (ix4 n (0 : Fin 1) h w) (3 : Fin 4) = w.val := by
  show 0 + w.val + 0 = w.val
  omega

theorem coord1 {wd : ℕ}
    (wf : GatherDims.WF ⟨4, ![N, C, A, B]⟩ ⟨5, ![N, 1, A, B, 1]⟩ ⟨4, ![N, 1, A, B]⟩ [] [1] [0, 2, 3] [1] [0, 2, 3] 4 ![1, 1, 1, 1])
    (idx : IVec ⟨5, ![N, 1, A, B, 1]⟩ wd) (n : Fin N) (h : Fin A) (w : Fin B) :
    (classDims N C A B wf).start (ix4 n (0 : Fin 1) h w) idx (1 : Fin 4) + (classDims N C A B wf).batchCoord (ix4 n (0 : Fin 1) h w) (1 : Fin 4)
      + (classDims N C A B wf).offCoord (ix4 n (0 : Fin 1) h w) (1 : Fin 4)
      = min (idx (ix5 n (0 : Fin 1) h w (0 : Fin 1))).toInt.toNat (C - 1) := by
  have hsi : (classDims N C A B wf).siIdx (ix4 n (0 : Fin 1) h w) ⟨List.idxOf (1 : Fin 4) (classDims N C A B wf).startIndexMap,
      List.idxOf_lt_length_iff.2 (List.mem_singleton.mpr rfl)⟩ = ix5 n (0 : Fin 1) h w (0 : Fin 1) := by
    funext b; refine Fin.ext ?_
    match b with
    | ⟨0, _⟩ => rfl
    | ⟨1, _⟩ => rfl
    | ⟨2, _⟩ => rfl
    | ⟨3, _⟩ => rfl
    | ⟨4, _⟩ => rfl
  show (classDims N C A B wf).start (ix4 n (0 : Fin 1) h w) idx (1 : Fin 4) = _
  unfold GatherDims.start
  rw [dif_pos (show (1 : Fin 4) ∈ (classDims N C A B wf).startIndexMap from List.mem_singleton.mpr rfl), hsi]
  rfl

/-- THE GATHER READ AT (n, 0, h, w): the operand at (n, k, h, w), `k` the start index at (n, 0, h, w, 0) read signed and
    clamped into [0, C − 1]. -/
theorem gather_classes {wd : ℕ} (hC : 0 < C)
    (wf : GatherDims.WF ⟨4, ![N, C, A, B]⟩ ⟨5, ![N, 1, A, B, 1]⟩ ⟨4, ![N, 1, A, B]⟩ [] [1] [0, 2, 3] [1] [0, 2, 3] 4 ![1, 1, 1, 1])
    (x : (⟨4, ![N, C, A, B]⟩ : Shape).Idx → α) (idx : IVec ⟨5, ![N, 1, A, B, 1]⟩ wd) (n : Fin N) (h : Fin A) (w : Fin B) :
    Host.gather (classDims N C A B wf) x idx (ix4 n (0 : Fin 1) h w)
      = x (ix4 n ⟨min (idx (ix5 n (0 : Fin 1) h w (0 : Fin 1))).toInt.toNat (C - 1), by omega⟩ h w) := by
  unfold Host.gather
  congr 1
  funext a
  refine Fin.ext ?_
  show (classDims N C A B wf).start (ix4 n (0 : Fin 1) h w) idx a + (classDims N C A B wf).batchCoord (ix4 n (0 : Fin 1) h w) a
      + (classDims N C A B wf).offCoord (ix4 n (0 : Fin 1) h w) a = _
  match a with
  | ⟨0, _⟩ => exact coord0 wf idx n h w
  | ⟨1, _⟩ => exact coord1 wf idx n h w
  | ⟨2, _⟩ => exact coord2 wf idx n h w
  | ⟨3, _⟩ => exact coord3 wf idx n h w

/-- The same with the class named: when the clamped start index is the class `k`, the gather reads (n, k, h, w). -/
theorem gather_classes_eq {wd : ℕ} (hC : 0 < C)
    (wf : GatherDims.WF ⟨4, ![N, C, A, B]⟩ ⟨5, ![N, 1, A, B, 1]⟩ ⟨4, ![N, 1, A, B]⟩ [] [1] [0, 2, 3] [1] [0, 2, 3] 4 ![1, 1, 1, 1])
    (x : (⟨4, ![N, C, A, B]⟩ : Shape).Idx → α) (idx : IVec ⟨5, ![N, 1, A, B, 1]⟩ wd) (n : Fin N) (h : Fin A) (w : Fin B)
    (k : Fin C) (hk : min (idx (ix5 n (0 : Fin 1) h w (0 : Fin 1))).toInt.toNat (C - 1) = k.val) :
    Host.gather (classDims N C A B wf) x idx (ix4 n (0 : Fin 1) h w) = x (ix4 n k h w) :=
  (gather_classes hC wf x idx n h w).trans (congrArg (fun q : Fin C => x (ix4 n q h w)) (Fin.ext hk))

end Gather

end Cert.MarginLoss.HostClassAxis

end
-- ==== Proof.RefPixel.lean ====
/-
  The reference at one pixel.  Each stage of the reference, read at the pixel (n, h, w) — at (n, c, h, w) for the stages
  that carry a class axis —, is the per-pixel quantity of the specification for the scores X (n, c, h, w) and the label
  L (n, h, w): the class index, the one-hot bit, the masked scores, both log-softmaxes (the maximum over the class axis,
  the shift, the log of the sum of exponentials), the margin, the validity number.  The cross-entropy is where the two
  programs differ in form: the reference TAKES the log-softmax at the class index by a gather (after wrapping negative
  indices and testing the range), which for a class index among the nineteen classes is the entry the one-hot sum
  picks.  So the reference's weighted loss is the specification's at every pixel whose class index is a class, and
  its result the mean of the two arrays.
-/
import proofs.«421635_j45526653337749_1_alg».proof.Proof.RefRead
import proofs.«421635_j45526653337749_1_alg».proof.Proof.Spec
import proofs.«421635_j45526653337749_1_alg».proof.Proof.LibHostClassAxis
import Idealize.ShloMosaic.Lib.ValueLayout

noncomputable section

namespace Cert.ReferenceIdeal.Pixel

open Cert.MarginLoss.HostClassAxis Cert.ReferenceIdeal Cert.ReferenceIdeal.Gen Cert.ReferenceIdeal.Read Idealize.ShloMosaic Idealize.ShloMosaic.ValueIdx Cert.MarginLoss

variable (X : (⟨S8x19x512x512, .f32⟩ : BufTy).Contents (Elt Ideal)) (L : (⟨S8x512x512, .i32⟩ : BufTy).Contents (Elt Ideal))
variable (n : Fin 8) (h : Fin 512) (w : Fin 512)

/-- The scores of the pixel (n, h, w), by class. -/
abbrev scores : Fin 19 → EReal := fun c => X (ix4 n c h w)
/-- The label word of the pixel (n, h, w). -/
abbrev label : BitVec 32 := L (ix3 n h w)

theorem v1_at : val_main_v1 (F := Ideal) L (ix3 n h w) = IntOp.cmpi .ne (label L n h w) 255#32 := by
  rw [val_main_v1_apply, val_main_v0_apply, val_main_c_apply]

theorem cls_at : val_main_v2 (F := Ideal) L (ix3 n h w) = cls (label L n h w) := by
  rw [val_main_v2_apply, v1_at, val_main_call0_v1_apply, val_main_call0_v0_apply]
  rfl

theorem idx_hot (c : Fin 19) : idx_main_call1_v0 (idx_main_call1_v2 (ix4 n c h w)) = ix3 n h w :=
  funext fun a => Fin.ext (by match a with | ⟨0, _⟩ => rfl | ⟨1, _⟩ => rfl | ⟨2, _⟩ => rfl)

theorem hot_at (c : Fin 19) : val_main_v3 (F := Ideal) L (ix4 n c h w) = hot (label L n h w) c := by
  rw [val_main_v3_apply, val_main_call1_v2_apply, val_main_call1_v0_apply, idx_hot, cls_at, val_main_call1_v3_apply,
    val_main_call1_v1_apply, cmpi_eq_comm]
  rfl

theorem masked_at (c : Fin 19) : val_main_v4 (F := Ideal) X L (ix4 n c h w) = masked (scores X n h w) (label L n h w) c := by
  rw [val_main_v4_apply, hot_at, val_main_call2_v1_apply, val_main_call2_v0_apply]
  rfl

/-! ## The log-softmax of the masked scores (the first call) -/

theorem idx_row (c : Fin 19) : idx_main_call3_v3 (idx_main_call3_v4 (ix4 n c h w)) = ix3 n h w :=
  funext fun a => Fin.ext (by match a with | ⟨0, _⟩ => rfl | ⟨1, _⟩ => rfl | ⟨2, _⟩ => rfl)

theorem top3_at : val_main_call3_v2 (F := Ideal) X L (ix3 n h w) = top (masked (scores X n h w) (label L n h w)) := by
  rw [val_main_call3_v2_apply, val_main_call3_v1_apply, val_main_call3_cst_0_apply]
  unfold val_main_call3_v0
  rw [hostMax_classes _ _ reducesTo_S8x19x512x512_S8x512x512_d1 (by decide) h_S_ n h w]
  simp only [masked_at]
  exact max_negInf _

theorem shift3_at (c : Fin 19) :
    val_main_call3_v5 (F := Ideal) X L (ix4 n c h w) = shifted (masked (scores X n h w) (label L n h w)) c := by
  rw [val_main_call3_v5_apply, masked_at, val_main_call3_v4_apply, val_main_call3_v3_apply, idx_row, top3_at]
  rfl

theorem idx_sum3 (k : Fin 19) : idx_main_call3_v7 (ix3 n h w) k = ix4 n k h w :=
  funext fun a => Fin.ext (by match a with | ⟨0, _⟩ => rfl | ⟨1, _⟩ => rfl | ⟨2, _⟩ => rfl | ⟨3, _⟩ => rfl)

theorem sumexp3_at :
    val_main_call3_v7 (F := Ideal) X L (ix3 n h w) = ∑ k : Fin 19, Ideal.exp (shifted (masked (scores X n h w) (label L n h w)) k) := by
  rw [val_main_call3_v7_apply, val_main_call3_cst_1_apply]
  simp only [idx_sum3, val_main_call3_v6_apply, shift3_at]
  show zeroW + _ = _
  rw [zeroW_eq, zero_add]
  rfl

theorem idx_row8 (c : Fin 19) : idx_main_call3_v8 (idx_main_call3_v10 (ix4 n c h w)) = ix3 n h w :=
  funext fun a => Fin.ext (by match a with | ⟨0, _⟩ => rfl | ⟨1, _⟩ => rfl | ⟨2, _⟩ => rfl)

theorem ls3_at (c : Fin 19) :
    val_main_v5 (F := Ideal) X L (ix4 n c h w) = logSoftmax (masked (scores X n h w) (label L n h w)) c := by
  rw [val_main_v5_apply, shift3_at, val_main_call3_v10_apply, val_main_call3_v9_apply, val_main_call3_v8_apply, idx_row8, sumexp3_at]
  rfl

/-! ## The margin -/

theorem idx_sum11 (k : Fin 19) : idx_main_v11 (ix3 n h w) k = ix4 n k h w :=
  funext fun a => Fin.ext (by match a with | ⟨0, _⟩ => rfl | ⟨1, _⟩ => rfl | ⟨2, _⟩ => rfl | ⟨3, _⟩ => rfl)

theorem marginTerm_at (c : Fin 19) :
    val_main_v10 (F := Ideal) X L (ix4 n c h w) = marginTerm (scores X n h w) (label L n h w) c := by
  rw [val_main_v10_apply, hot_at, val_main_call4_v1_apply, val_main_call4_v0_apply, val_main_v9_apply, val_main_v8_apply,
    val_main_v6_apply, ls3_at, val_main_v7_apply, val_main_cst_1_apply]
  rfl

theorem margin_at : val_main_v13 (F := Ideal) X L (ix3 n h w) = margin (scores X n h w) (label L n h w) := by
  rw [val_main_v13_apply, val_main_v11_apply, val_main_cst_3_apply, val_main_v12_apply, val_main_cst_4_apply]
  simp only [idx_sum11, marginTerm_at]
  show (zeroW + _) * lam = _
  rw [zeroW_eq, zero_add]
  rfl

/-! ## The log-softmax of the scores themselves (the second call) -/

theorem idx_row5 (c : Fin 19) : idx_main_call5_v3 (idx_main_call5_v4 (ix4 n c h w)) = ix3 n h w :=
  funext fun a => Fin.ext (by match a with | ⟨0, _⟩ => rfl | ⟨1, _⟩ => rfl | ⟨2, _⟩ => rfl)

theorem top5_at : val_main_call5_v2 (F := Ideal) X (ix3 n h w) = top (scores X n h w) := by
  rw [val_main_call5_v2_apply, val_main_call5_v1_apply, val_main_call5_cst_0_apply]
  unfold val_main_call5_v0
  rw [hostMax_classes _ _ reducesTo_S8x19x512x512_S8x512x512_d1 (by decide) h_S_ n h w]
  exact max_negInf _

theorem shift5_at (c : Fin 19) : val_main_call5_v5 (F := Ideal) X (ix4 n c h w) = shifted (scores X n h w) c := by
  rw [val_main_call5_v5_apply, val_main_call5_v4_apply, val_main_call5_v3_apply, idx_row5, top5_at]
  rfl

theorem idx_sum5 (k : Fin 19) : idx_main_call5_v7 (ix3 n h w) k = ix4 n k h w :=
  funext fun a => Fin.ext (by match a with | ⟨0, _⟩ => rfl | ⟨1, _⟩ => rfl | ⟨2, _⟩ => rfl | ⟨3, _⟩ => rfl)

theorem sumexp5_at : val_main_call5_v7 (F := Ideal) X (ix3 n h w) = ∑ k : Fin 19, Ideal.exp (shifted (scores X n h w) k) := by
  rw [val_main_call5_v7_apply, val_main_call5_cst_1_apply]
  simp only [idx_sum5, val_main_call5_v6_apply, shift5_at]
  show zeroW + _ = _
  rw [zeroW_eq, zero_add]
  rfl

theorem idx_row58 (c : Fin 19) : idx_main_call5_v8 (idx_main_call5_v10 (ix4 n c h w)) = ix3 n h w :=
  funext fun a => Fin.ext (by match a with | ⟨0, _⟩ => rfl | ⟨1, _⟩ => rfl | ⟨2, _⟩ => rfl)

theorem ls5_at (c : Fin 19) : val_main_v14 (F := Ideal) X (ix4 n c h w) = logSoftmax (scores X n h w) c := by
  rw [val_main_v14_apply, shift5_at, val_main_call5_v10_apply, val_main_call5_v9_apply, val_main_call5_v8_apply, idx_row58, sumexp5_at]
  rfl

/-! ## The cross-entropy: the log-softmax at the class index, taken by a gather -/

theorem idx15 : idx_main_v15 (ix4 n (0 : Fin 1) h w) = ix3 n h w :=
  funext fun a => Fin.ext (by match a with | ⟨0, _⟩ => rfl | ⟨1, _⟩ => rfl | ⟨2, _⟩ => rfl)

/-- The start index with a trailing unit axis is the start index. -/
theorem start_at : val_main_call6_v5 (F := Ideal) L (ix5 n (0 : Fin 1) h w (0 : Fin 1)) = val_main_call6_v4 (F := Ideal) L (ix4 n (0 : Fin 1) h w) := by
  unfold val_main_call6_v5
  exact shapeCast_apply _ _ _ (ix4 n (0 : Fin 1) h w) (by
    rw [Shape.rowMajor_val_four, Shape.rowMajor_val_five]
    show ((n.val * 1 + 0) * 512 + h.val) * 512 + w.val = (((n.val * 1 + 0) * 512 + h.val) * 512 + w.val) * 1 + 0
    omega)

/-- The per-pixel result with its unit class axis dropped is the result. -/
theorem v17_at : val_main_v17 (F := Ideal) X L (ix3 n h w) = val_main_v16 (F := Ideal) X L (ix4 n (0 : Fin 1) h w) := by
  unfold val_main_v17
  exact shapeCast_apply _ _ _ (ix4 n (0 : Fin 1) h w) (by
    rw [Shape.rowMajor_val_four, Shape.rowMajor_val_three]
    show ((n.val * 1 + 0) * 512 + h.val) * 512 + w.val = (n.val * 512 + h.val) * 512 + w.val
    omega)

variable (hl : InRange (label L n h w))
include hl

/-- A class index among the classes is not moved by the wrap-around of negative indices. -/
theorem start4_at : val_main_call6_v4 (F := Ideal) L (ix4 n (0 : Fin 1) h w) = cls (label L n h w) := by
  rw [val_main_call6_v4_apply, val_main_call6_v1_apply, val_main_v15_apply, idx15, cls_at, val_main_call6_v0_apply,
    val_main_call6_c_apply, slt_zero_of_inRange hl, select_zero]

/-- The in-range test of the start index answers 1. -/
theorem inb_at : val_main_call6_v12 (F := Ideal) L (ix4 n (0 : Fin 1) h w) = 1#1 := by
  unfold val_main_call6_v12
  refine hostAll_unit _ _ reducesTo_S8x1x512x512x1_S8x1x512x512_d4 (by decide) h_S_ n h w ?_ rfl
  rw [val_main_call6_v11_apply, val_main_call6_v7_apply, val_main_call6_v10_apply, start_at, start4_at L n h w hl,
    val_main_call6_v6_apply, val_main_call6_c_2_apply, val_main_call6_v9_apply, val_main_call6_v8_apply, val_main_call6_c_1_apply,
    sge_zero_of_inRange hl, sle_18_of_inRange hl]
  rfl

/-- The gather takes the log-softmax at the class index. -/
theorem picked_at : val_main_call6_v13 (F := Ideal) X L (ix4 n (0 : Fin 1) h w)
    = logSoftmax (scores X n h w) ⟨(cls (label L n h w)).toNat, (toNat_of_inRange hl).1⟩ := by
  unfold val_main_call6_v13
  refine (gather_classes_eq (N := 8) (C := 19) (A := 512) (B := 512) (by decide) _ (val_main_v14 (F := Ideal) X)
    (val_main_call6_v5 (F := Ideal) L) n h w ⟨(cls (label L n h w)).toNat, (toNat_of_inRange hl).1⟩ ?_).trans (ls5_at X n h w _)
  rw [start_at, start4_at L n h w hl]
  exact clamp_of_inRange hl

theorem ce_at : val_main_v18 (F := Ideal) X L (ix3 n h w)
    = -(logSoftmax (scores X n h w) ⟨(cls (label L n h w)).toNat, (toNat_of_inRange hl).1⟩) := by
  rw [val_main_v18_apply, v17_at, val_main_v16_apply, inb_at L n h w hl, select_one, picked_at X L n h w hl]
  rfl

omit hl in
theorem valid_at : val_main_v20 (F := Ideal) L (ix3 n h w) = valid (label L n h w) := by
  rw [val_main_v20_apply, v1_at, valid_eq_toNat]
  rfl

/-- The reference's weighted loss of a pixel is the specification's. -/
theorem loss_at : val_main_v21 (F := Ideal) X L (ix3 n h w) = loss (scores X n h w) (label L n h w) := by
  rw [val_main_v21_apply, val_main_v19_apply, margin_at, ce_at X L n h w hl, valid_at]
  unfold loss
  rw [zeroW_sub, picked_eq _ _ (toNat_of_inRange hl).1]
  rfl

end Cert.ReferenceIdeal.Pixel

namespace Cert.ReferenceIdeal.Pixel

open Cert.MarginLoss.HostClassAxis Cert.ReferenceIdeal Cert.ReferenceIdeal.Gen Cert.ReferenceIdeal.Read Idealize.ShloMosaic Idealize.ShloMosaic.ValueIdx Cert.MarginLoss

variable (X : (⟨S8x19x512x512, .f32⟩ : BufTy).Contents (Elt Ideal)) (L : (⟨S8x512x512, .i32⟩ : BufTy).Contents (Elt Ideal))

/-! ## The arrays, and the result -/

theorem lossArr_eq (hL : ∀ j, InRange (L j)) : val_main_v21 (F := Ideal) X L = lossArr X L := by
  funext j
  obtain ⟨n, h, w, rfl⟩ : ∃ (n : Fin 8) (h : Fin 512) (w : Fin 512), j = ix3 n h w := ⟨j 0, j 1, j 2, eq_ix3 j⟩
  exact loss_at X L n h w (hL _)

theorem validArr_eq : val_main_v20 (F := Ideal) L = validArr L := by
  funext j
  obtain ⟨n, h, w, rfl⟩ : ∃ (n : Fin 8) (h : Fin 512) (w : Fin 512), j = ix3 n h w := ⟨j 0, j 1, j 2, eq_ix3 j⟩
  exact valid_at L n h w

/-- The reference's result is the mean of the specification's two arrays, for labels whose class indices are classes. -/
theorem result_eq (hL : ∀ j, InRange (L j)) : val_main_v24 (F := Ideal) X L = meanLoss (lossArr X L) (validArr L) := by
  unfold val_main_v24 val_main_v22 val_main_v23
  rw [lossArr_eq X L hL, validArr_eq L]
  rfl

end Cert.ReferenceIdeal.Pixel

end
-- ==== Proof.PreDecode.lean ====
/-
  What the precondition says of the labels.  Besides the finiteness of the logits it states, pixel by pixel, that the
  class index (the label, or 0 at the ignore label 255), read signed, is at least 0 and below 19.  From "all ones" of the
  printed predicate to that fact at every pixel: the two conjunctions and the all-reduction are opened.
-/
import proofs.«421635_j45526653337749_1_alg».proof.Pre_finite_inputs
import proofs.«421635_j45526653337749_1_alg».proof.Proof.Spec
import Idealize.ShloMosaic.Lib.ReduceAll
import Idealize.ShloMosaic.Lib.Affine

noncomputable section

namespace Cert.PreDecode

open Cert.Pre_finite_inputs Idealize.ShloMosaic Cert.MarginLoss

instance : Subsingleton S_.Idx := ⟨fun a b => funext fun d => d.elim0⟩

/-- Under the precondition every pixel's class index is one of the nineteen classes. -/
theorem inRange_of_pre [Cert.Pre_finite_inputs.Facts] (X : FVec Ideal S8x19x512x512 .f32) (L : IVec S8x512x512 32)
    (h : Cert.Pre_finite_inputs.fn (F := Ideal) X L = fun _ => 1#1) (j : S8x512x512.Idx) : InRange (L j) := by
  have h0 := congrFun h ValueIdx.ix0
  dsimp only [Cert.Pre_finite_inputs.fn] at h0
  obtain ⟨-, h2⟩ := IntOp.andi_eq_one.mp h0
  have hj := Host.reduce_andi_all _ _ _ _ ValueIdx.ix0 h2 j
  obtain ⟨ha, hb⟩ := IntOp.andi_eq_one.mp hj
  have z : (0#32 : BitVec 32).toInt = 0 := by decide
  have z19 : (19#32 : BitVec 32).toInt = 19 := by decide
  have ha' := IntOp.cmpi_sge.mp ha
  have hb' := IntOp.cmpi_slt.mp hb
  refine ⟨?_, ?_⟩
  · exact z ▸ ha'
  · exact z19 ▸ hb'

end Cert.PreDecode

end
-- ==== Proof.lean ====
/-
  The certificate of the large-margin softmax loss kernel against its jnp reference, over the extended reals.

  Both programs return the mean, over the pixels of a batch [8, 19, 512, 512] of logits with labels [8, 512, 512], of a
  per-pixel loss weighted by a validity bit (the label 255 is ignored): the sum of the weighted losses over the sum of
  the validity numbers.  Per pixel, with y the scores whose label entry is replaced by a large negative constant,
      loss = 0.15 · ∑ over classes c other than the label of (exp (logsoftmax y c) − 1/18) · logsoftmax y c
             − logsoftmax x (label).
  The kernel computes the last term as a one-hot-masked sum over the nineteen classes; the reference takes it by a
  gather at the label.  The two agree exactly when the class index (the label, or 0 at the ignore label) is one of
  the nineteen classes, which the precondition states beside the finiteness of the logits; no other law than
  "a sum with one non-zero term is that term" and "0 − a = −a" joins the two sides, so finiteness is not used.

  The frames of the two kernel programs are the generated ones; the reference's is its run with the result dropped.
  The idealization rewrote nothing, so `preserves` is trivial.  For `algebraic`: the kernel's run ends with the result
  at `meanLoss (lossArr X L) (validArr L)` of the argument arrays (Proof/KernelArrays.lean over Proof/KernelPixel.lean),
  the reference's at its composed term, which is the same function of arguments that agree
  (Proof/RefPixel.lean), given the class indices in range (Proof/PreDecode.lean).
-/
import proofs.«421635_j45526653337749_1_alg».proof.Defs
import proofs.«421635_j45526653337749_1_alg».proof.Proof.Gen.Kernel
import proofs.«421635_j45526653337749_1_alg».proof.Proof.Gen.Kernel.Skeleton
import proofs.«421635_j45526653337749_1_alg».proof.Proof.Gen.Kernel.Launch
import proofs.«421635_j45526653337749_1_alg».proof.Proof.Gen.Kernel.Points
import proofs.«421635_j45526653337749_1_alg».proof.Proof.Gen.Kernel.Frame
import proofs.«421635_j45526653337749_1_alg».proof.Proof.Gen.KernelIdeal
import proofs.«421635_j45526653337749_1_alg».proof.Proof.Gen.KernelIdeal.Skeleton
import proofs.«421635_j45526653337749_1_alg».proof.Proof.Gen.KernelIdeal.Launch
import proofs.«421635_j45526653337749_1_alg».proof.Proof.Gen.KernelIdeal.Points
import proofs.«421635_j45526653337749_1_alg».proof.Proof.Gen.KernelIdeal.Frame
import proofs.«421635_j45526653337749_1_alg».proof.Proof.Gen.ReferenceIdeal
import proofs.«421635_j45526653337749_1_alg».proof.Proof.Gen.Pre_finite_inputs
import proofs.«421635_j45526653337749_1_alg».proof.Proof.KernelArrays
import proofs.«421635_j45526653337749_1_alg».proof.Proof.RefPixel
import proofs.«421635_j45526653337749_1_alg».proof.Proof.PreDecode
import Idealize.ShloMosaic.Adequacy
import Idealize.ShloMosaic.Init

noncomputable section

namespace Cert.Proof

open Idealize.ShloMosaic Idealize.SL.Sem Cert.MarginLoss

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end at the mean of the per-pixel weighted losses over the sum of the validity numbers of arguments that
    agree; the precondition puts every class index among the nineteen classes, where the reference's gather is the
    kernel's one-hot sum. -/
theorem algebraic : Cert.algebraic_KernelIdeal_ReferenceIdeal := by
  intro m ρ m' ρ' hpre hagree
  refine ⟨_, Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2]
  exact Cert.ReferenceIdeal.Pixel.result_eq _ _ fun j => Cert.PreDecode.inRange_of_pre _ _ (hpre c) j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
